-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S160000x512 : Shape := ⟨2, ![160000, 512]⟩
abbrev S10000x512 : Shape := ⟨2, ![10000, 512]⟩
abbrev S160000 : Shape := ⟨1, ![160000]⟩
abbrev S1024x512 : Shape := ⟨2, ![1024, 512]⟩
abbrev S512 : Shape := ⟨1, ![512]⟩
abbrev S512x512 : Shape := ⟨2, ![512, 512]⟩
abbrev S_ : Shape := ⟨0, ![]⟩

class Facts : Prop where
  bcast_S_S160000x512 : S_.BroadcastsInDim S160000x512 (![] : Fin 0 → Fin S160000x512.rank)
  reducesTo_S160000x512_S_d0_1 : S160000x512.ReducesTo [0, 1] S_
  h_S_ : 0 < S_.numel
  bcast_S_S10000x512 : S_.BroadcastsInDim S10000x512 (![] : Fin 0 → Fin S10000x512.rank)
  reducesTo_S10000x512_S_d0_1 : S10000x512.ReducesTo [0, 1] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_

variable [Facts]

def fn_part2 {F : FTy → Type} [FloatOps F] (main_arg8 : FVec F S512 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg5 : FVec F S512x512 .f32) (main_arg6 : FVec F S512 .f32) (main_arg7 : FVec F S512 .f32) (main_arg8 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg5
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg8 main_v33

def fn {F : FTy → Type} [FloatOps F] (main_arg0 : FVec F S160000x512 .f32) (main_arg1 : FVec F S10000x512 .f32) (main_arg2 : IVec S160000 32) (main_arg3 : FVec F S1024x512 .f32) (main_arg4 : FVec F S512 .f32) (main_arg5 : FVec F S512x512 .f32) (main_arg6 : FVec F S512 .f32) (main_arg7 : FVec F S512 .f32) (main_arg8 : FVec F S512 .f32) : IVec S_ 1 :=
  let main_v0 : FVec F S160000x512 .f32 := Host.absf main_arg0
  let main_cst : FVec F S_ .f32 := constant S_ .f32 0x7F800000#32
  let main_v1 : FVec F S160000x512 .f32 := broadcastInDim S160000x512 ![] bcast_S_S160000x512 main_cst
  let main_v2 : IVec S160000x512 1 := cmpf .olt main_v0 main_v1
  let main_c : IVec S_ 1 := constantI S_ 1 1#1
  let main_v3 : IVec S_ 1 := (fun x v => Host.reduce IntOp.andi x v reducesTo_S160000x512_S_d0_1 h_S_) main_v2 main_c
  let main_v4 : FVec F S10000x512 .f32 := Host.absf main_arg1
  let main_cst_0 : FVec F S_ .f32 := constant S_ .f32 0x7F800000#32
  let main_v5 : FVec F S10000x512 .f32 := broadcastInDim S10000x512 ![] bcast_S_S10000x512 main_cst_0
  let main_v6 : IVec S10000x512 1 := cmpf .olt main_v4 main_v5
  let main_c_1 : IVec S_ 1 := constantI S_ 1 1#1
  let main_v7 : IVec S_ 1 := (fun x v => Host.reduce IntOp.andi x v reducesTo_S10000x512_S_d0_1 h_S_) main_v6 main_c_1
  let main_v8 : IVec S_ 1 := andi main_v3 main_v7
  let main_v9 : FVec F S1024x512 .f32 := Host.absf main_arg3
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_arg6 main_arg7 main_arg8 main_v13 main_v16
-- ==== Kernel.lean ====
abbrev S160000x512 : Shape := ⟨2, ![160000, 512]⟩
abbrev S10000x512 : Shape := ⟨2, ![10000, 512]⟩
abbrev S160000 : Shape := ⟨1, ![160000]⟩
abbrev S1024x512 : Shape := ⟨2, ![1024, 512]⟩
abbrev S512 : Shape := ⟨1, ![512]⟩
abbrev S512x512 : Shape := ⟨2, ![512, 512]⟩
abbrev S_ : Shape := ⟨0, ![]⟩
abbrev S160000x1 : Shape := ⟨2, ![160000, 1]⟩
abbrev S1x512 : Shape := ⟨2, ![1, 512]⟩
abbrev S1000x512 : Shape := ⟨2, ![1000, 512]⟩
abbrev S1000 : Shape := ⟨1, ![1000]⟩
abbrev S1000x1 : Shape := ⟨2, ![1000, 1]⟩

abbrev nBuf : Space → Nat
  | .hbm => 23
  | .vmem => 13
  | .smem => 0
  | _ => 0

abbrev bufTy : (tb : Table) → Fin (tcTables nBuf tb) → BufTy
  | .hbm, ⟨0, _⟩ => ⟨S160000x512, .f32⟩
  | .hbm, ⟨1, _⟩ => ⟨S10000x512, .f32⟩
  | .hbm, ⟨2, _⟩ => ⟨S160000, .i32⟩
  | .hbm, ⟨3, _⟩ => ⟨S1024x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S_, .f32⟩
  | .hbm, ⟨10, _⟩ => ⟨S10000x512, .f32⟩
  | .hbm, ⟨11, _⟩ => ⟨S160000x1, .i32⟩
  | .hbm, ⟨12, _⟩ => ⟨S10000x512, .f32⟩
  | .hbm, ⟨13, _⟩ => ⟨S512x512, .f32⟩
  | .hbm, ⟨14, _⟩ => ⟨S512x512, .bf16⟩
  | .hbm, ⟨15, _⟩ => ⟨S512x512, .f32⟩
  | .hbm, ⟨16, _⟩ => ⟨S512x512, .bf16⟩
  | .hbm, ⟨17, _⟩ => ⟨S512x512, .bf16⟩
  | .hbm, ⟨18, _⟩ => ⟨S1x512, .f32⟩
  | .hbm, ⟨19, _⟩ => ⟨S1x512, .f32⟩
  | .hbm, ⟨20, _⟩ => ⟨S1x512, .f32⟩
  | .hbm, ⟨21, _⟩ => ⟨S1x512, .f32⟩
  | .hbm, ⟨22, _⟩ => ⟨S10000x512, .f32⟩
  | .local _ .vmem, ⟨0, _⟩ => ⟨S1000x512, .f32⟩
  | .local _ .vmem, ⟨1, _⟩ => ⟨S1000x512, .f32⟩
  | .local _ .vmem, ⟨2, _⟩ => ⟨S1000x512, .f32⟩
  | .local _ .vmem, ⟨3, _⟩ => ⟨S1000x512, .f32⟩
  | .local _ .vmem, ⟨4, _⟩ => ⟨S512x512, .bf16⟩
  | .local _ .vmem, ⟨5, _⟩ => ⟨S512x512, .bf16⟩
  | .local _ .vmem, ⟨6, _⟩ => ⟨S1x512, .f32⟩
  | .local _ .vmem, ⟨7, _⟩ => ⟨S512x512, .bf16⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1000x512, .f32⟩
  | .local _ .vmem, ⟨12, _⟩ => ⟨S1000x512, .f32⟩
  | _, _ => ⟨S160000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1000x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S10000x512 : S_.BroadcastsInDim S10000x512 (![] : Fin 0 → Fin S10000x512.rank)
  bcast_S160000_S160000x1_0 : S160000.BroadcastsInDim S160000x1 (![0] : Fin 1 → Fin S160000x1.rank)
  slices_S1024x512_S512x512_0_0 : S1024x512.Slices ![0, 0] S512x512
  bitsLt_bf16_f32 : FTy.bits .bf16 < FTy.bits .f32
  slices_S1024x512_S512x512_512_0 : S1024x512.Slices ![512, 0] S512x512
  shapeCasts_S512_S1x512 : S512.ShapeCasts S1x512
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  reduces_S1000x512_S1000 : S1000x512.Reduces [1] S1000
  shapeCasts_S1000_S1000x1 : S1000.ShapeCasts S1000x1
  broadcasts_S1000x1_S1000x512 : S1000x1.Broadcasts S1000x512
  scatter_S10000x512_S160000x1_S160000x512_1_0_0_1_wf : ScatterDims.WF S10000x512 S160000x1 S160000x512 [1] [0] [0] 1
  dot_S1000x512_S512x512_S1000x512_1_0_0_1_n_n_wf : DotDims.WF S1000x512 S512x512 S1000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S10000x512.size a
  hwx0_0 : ∀ i : grid0.Coords, EltTy.bits .f32 = 32 ∨ (Rect.block (s := S10000x512) S1000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x512.size a ≤ S10000x512.size a
  hwx0_1 : ∀ i : grid0.Coords, EltTy.bits .f32 = 32 ∨ (Rect.block (s := S10000x512) S1000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .bf16 = 32 ∨ (Rect.block (s := S512x512) S512x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1000x512.size a ≤ S10000x512.size a
  hwx0_9 : ∀ i : grid0.Coords, EltTy.bits .f32 = 32 ∨ (Rect.block (s := S10000x512) S1000x512.size (cc0_transform_9 i) (hinb0_9 i)).WholeWords (EltTy.packing .f32)

variable [Facts₀]

def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf

abbrev win0_0 : Pipeline.Window sig grid0 :=
  Pipeline.Window.ofSpec (Memref.whole main_v2) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v12) S1000x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where
  halias0_9 : Pipeline.Aliased win0 0 9

variable [Facts]
-- ==== ReferenceIdeal.lean ====
abbrev S160000x512 : Shape := ⟨2, ![160000, 512]⟩
abbrev S10000x512 : Shape := ⟨2, ![10000, 512]⟩
abbrev S160000 : Shape := ⟨1, ![160000]⟩
abbrev S1024x512 : Shape := ⟨2, ![1024, 512]⟩
abbrev S512 : Shape := ⟨1, ![512]⟩
abbrev S512x512 : Shape := ⟨2, ![512, 512]⟩
abbrev S_ : Shape := ⟨0, ![]⟩
abbrev S160000x1 : Shape := ⟨2, ![160000, 1]⟩
abbrev S10000x1024 : Shape := ⟨2, ![10000, 1024]⟩
abbrev S1x512 : Shape := ⟨2, ![1, 512]⟩
abbrev S10000 : Shape := ⟨1, ![10000]⟩
abbrev S10000x1 : Shape := ⟨2, ![10000, 1]⟩

abbrev nBuf : Space → Nat
  | .hbm => 76
  | .vmem => 0
  | .smem => 0
  | _ => 0

abbrev bufTy : (tb : Table) → Fin (tcTables nBuf tb) → BufTy
  | .hbm, ⟨0, _⟩ => ⟨S160000x512, .f32⟩
  | .hbm, ⟨1, _⟩ => ⟨S10000x512, .f32⟩
  | .hbm, ⟨2, _⟩ => ⟨S160000, .i32⟩
  | .hbm, ⟨3, _⟩ => ⟨S1024x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S_, .f32⟩
  | .hbm, ⟨10, _⟩ => ⟨S10000x512, .f32⟩
  | .hbm, ⟨11, _⟩ => ⟨S160000x1, .i32⟩
  | .hbm, ⟨12, _⟩ => ⟨S10000x512, .f32⟩
  | .hbm, ⟨13, _⟩ => ⟨S10000x1024, .f32⟩
  | .hbm, ⟨14, _⟩ => ⟨S10000x512, .f32⟩
  | .hbm, ⟨15, _⟩ => ⟨S1x512, .f32⟩
  | .hbm, ⟨16, _⟩ => ⟨S10000x512, .f32⟩
  | .hbm, ⟨17, _⟩ => ⟨S10000x512, .f32⟩
  | .hbm, ⟨18, _⟩ => ⟨S10000x512, .f32⟩
  | .hbm, ⟨19, _⟩ => ⟨S10000x512, .f32⟩
  | .hbm, ⟨20, _⟩ => ⟨S_, .f32⟩
  | .hbm, ⟨21, _⟩ => ⟨S10000x512, .f32⟩
  | .hbm, ⟨22, _⟩ => ⟨S10000x512, .f32⟩
  | .hbm, ⟨23, _⟩ => ⟨S_, .f32⟩
  | .hbm, ⟨24, _⟩ => ⟨S10000x512, .f32⟩
  | .hbm, ⟨25, _⟩ => ⟨S10000x512, .f32⟩
  | .hbm, ⟨26, _⟩ => ⟨S10000x512, .f32⟩
  | .hbm, ⟨27, _⟩ => ⟨S10000x512, .f32⟩
  | .hbm, ⟨28, _⟩ => ⟨S1x512, .f32⟩
  | .hbm, ⟨29, _⟩ => ⟨S10000x512, .f32⟩
  | .hbm, ⟨30, _⟩ => ⟨S10000x512, .f32⟩
  | .hbm, ⟨31, _⟩ => ⟨S_, .f32⟩
  | .hbm, ⟨32, _⟩ => ⟨S10000, .f32⟩
  | .hbm, ⟨33, _⟩ => ⟨S10000x1, .f32⟩
  | .hbm, ⟨34, _⟩ => ⟨S_, .f32⟩
  | .hbm, ⟨35, _⟩ => ⟨S10000x1, .f32⟩
  | .hbm, ⟨36, _⟩ => ⟨S10000x1, .f32⟩
  | .hbm, ⟨37, _⟩ => ⟨S_, .i32⟩
  | .hbm, ⟨38, _⟩ => ⟨S_, .f32⟩
  | .hbm, ⟨39, _⟩ => ⟨S10000, .f32⟩
  | .hbm, ⟨40, _⟩ => ⟨S10000x1, .f32⟩
  | .hbm, ⟨41, _⟩ => ⟨S_, .f32⟩
  | .hbm, ⟨42, _⟩ => ⟨S10000x1, .f32⟩
  | .hbm, ⟨43, _⟩ => ⟨S10000x1, .f32⟩
  | .hbm, ⟨44, _⟩ => ⟨S10000x512, .f32⟩
  | .hbm, ⟨45, _⟩ => ⟨S10000x512, .f32⟩
  | .hbm, ⟨46, _⟩ => ⟨S10000x512, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S10000, .f32⟩
  | .hbm, ⟨52, _⟩ => ⟨S10000x1, .f32⟩
  | .hbm, ⟨53, _⟩ => ⟨S10000x1, .f32⟩
  | .hbm, ⟨54, _⟩ => ⟨S10000x1, .f32⟩
  | .hbm, ⟨55, _⟩ => ⟨S_, .f32⟩
  | .hbm, ⟨56, _⟩ => ⟨S_, .i1⟩
  | .hbm, ⟨57, _⟩ => ⟨S_, .f32⟩
  | .hbm, ⟨58, _⟩ => ⟨S_, .f32⟩
  | .hbm, ⟨59, _⟩ => ⟨S10000x1, .f32⟩
  | .hbm, ⟨60, _⟩ => ⟨S10000x1, .f32⟩
  | .hbm, ⟨61, _⟩ => ⟨S10000x512, .f32⟩
  | .hbm, ⟨62, _⟩ => ⟨S10000x512, .f32⟩
  | .hbm, ⟨63, _⟩ => ⟨S_, .f32⟩
  | .hbm, ⟨64, _⟩ => ⟨S10000x1, .f32⟩
  | .hbm, ⟨65, _⟩ => ⟨S10000x1, .f32⟩
  | .hbm, ⟨66, _⟩ => ⟨S10000x1, .f32⟩
  | .hbm, ⟨67, _⟩ => ⟨S10000x512, .f32⟩
  | .hbm, ⟨68, _⟩ => ⟨S10000x512, .f32⟩
  | .hbm, ⟨69, _⟩ => ⟨S1x512, .f32⟩
  | .hbm, ⟨70, _⟩ => ⟨S10000x512, .f32⟩
  | .hbm, ⟨71, _⟩ => ⟨S10000x512, .f32⟩
  | .hbm, ⟨72, _⟩ => ⟨S1x512, .f32⟩
  | .hbm, ⟨73, _⟩ => ⟨S10000x512, .f32⟩
  | .hbm, ⟨74, _⟩ => ⟨S10000x512, .f32⟩
  | .hbm, ⟨75, _⟩ => ⟨S10000x512, .f32⟩
  | _, _ => ⟨S160000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_0 : Ref sig .tc := ⟨.hbm, 31, rfl⟩
abbrev main_v13 : Ref sig .tc := ⟨.hbm, 32, rfl⟩
abbrev main_v14 : Ref sig .tc := ⟨.hbm, 33, rfl⟩
abbrev main_cst_1 : Ref sig .tc := ⟨.hbm, 34, rfl⟩
abbrev main_v15 : Ref sig .tc := ⟨.hbm, 35, rfl⟩
abbrev main_v16 : Ref sig .tc := ⟨.hbm, 36, rfl⟩
abbrev main_c : Ref sig .tc := ⟨.hbm, 37, rfl⟩
abbrev main_call1_cst : Ref sig .tc := ⟨.hbm, 38, rfl⟩
abbrev main_call1_v0 : Ref sig .tc := ⟨.hbm, 39, rfl⟩
abbrev main_call1_v1 : Ref sig .tc := ⟨.hbm, 40, rfl⟩
abbrev main_call1_cst_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_v6 : Ref sig .tc := ⟨.hbm, 46, rfl⟩
abbrev main_call1_v7 : Ref sig .tc := ⟨.hbm, 47, rfl⟩
abbrev main_call1_cst_1 : Ref sig .tc := ⟨.hbm, 48, rfl⟩
abbrev main_call1_v8 : Ref sig .tc := ⟨.hbm, 49, rfl⟩
abbrev main_call1_cst_2 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_v12 : Ref sig .tc := ⟨.hbm, 54, rfl⟩
abbrev main_call1_cst_3 : Ref sig .tc := ⟨.hbm, 55, rfl⟩
abbrev main_call1_v13 : Ref sig .tc := ⟨.hbm, 56, rfl⟩
abbrev main_call1_cst_4 : Ref sig .tc := ⟨.hbm, 57, rfl⟩
abbrev main_call1_call0_v0 : Ref sig .tc := ⟨.hbm, 58, rfl⟩
abbrev main_call1_call0_v1 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_cst_2 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩

abbrev nD : Nat := 1
abbrev τ : Topo := Topo.v7x

variable {F : FTy → Type} [FloatOps F]

class Facts₀ : Prop where
  bcast_S_S10000x512 : S_.BroadcastsInDim S10000x512 (![] : Fin 0 → Fin S10000x512.rank)
  bcast_S160000_S160000x1_0 : S160000.BroadcastsInDim S160000x1 (![0] : Fin 1 → Fin S160000x1.rank)
  concatenates_S10000x512_S10000x512_S10000x1024_d1 : Shape.Concatenates [S10000x512, S10000x512] S10000x1024 1
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  reducesTo_S10000x512_S10000_d1 : S10000x512.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x512_0_1 : S10000x1.BroadcastsInDim S10000x512 (![0, 1] : Fin 2 → Fin S10000x512.rank)
  scatter_S10000x512_S160000x1_S160000x512_1_0_0_1_wf : ScatterDims.WF S10000x512 S160000x1 S160000x512 [1] [0] [0] 1
  dot_S10000x1024_S1024x512_S10000x512_1_0_0_1_n_n_wf : DotDims.WF S10000x1024 S1024x512 S10000x512 [1] [0] [0] [1] [] []
  dot_S10000x512_S512x512_S10000x512_1_0_0_1_n_n_wf : DotDims.WF S10000x512 S512x512 S10000x512 [1] [0] [0] [1] [] []

variable [Facts₀]

def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf
def dot_S10000x1024_S1024x512_S10000x512_1_0_0_1_n_n : DotDims S10000x1024 S1024x512 S10000x512 where
  lhsContracting := [1]
  rhsContracting := [0]
  lhsNonContracting := [0]
  rhsNonContracting := [1]
  lhsBatch := []
  rhsBatch := []
  wf := dot_S10000x1024_S1024x512_S10000x512_1_0_0_1_n_n_wf
def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf

class Facts : Prop extends Facts₀ where

variable [Facts]
-- ==== Proof.Spec.lean ====
/-
  The mathematics of one node's update, stated row by row over the extended reals, with no program in sight.

  A node's row of the result is a function of that node's aggregated edge row `a`, its own feature row `x`, and the
  shared weights: a first affine layer on the concatenation `[a, x]` (written as the sum of the two half products),
  the SiLU `t · σ(t)`, a second affine layer, a layer normalisation over the 512 features with the variance taken as
  `E[h²] − (E h)²`, the affine scale and shift, and the residual `+ x`.  `rowOut` is that function; `G` reads it off
  whole arrays.  `IsR` says an extended real is a real number, and the closure lemmas below carry it through sums,
  products and the SiLU: a hidden row built from real inputs is real, which is what the variance identity needs.
-/
import Idealize.ShloMosaic.PureOps.Ideal
import Idealize.ShloMosaic.PureOps.Ideal.Laws
import Idealize.ShloMosaic.Lib.ValueIdx

noncomputable section

namespace Cert.Mlp

open Idealize.ShloMosaic Idealize.ShloMosaic.ValueIdx

/-- The divisor 512 of the two means, as the kernel and the reference both spell it. -/
def c512 : EReal := Ideal.ofBits .f32 0x44000000#32
/-- The layer norm's epsilon: the same f32 word on both sides, never evaluated. -/
def eps : EReal := Ideal.ofBits .f32 0x3727C5AC#32

/-- First affine layer on `[a, x]`: column `k` of `a·Wa + x·Wb + b`. -/
def lin1 (a x : Fin 512 → EReal) (wa wb : Fin 512 → Fin 512 → EReal) (b : Fin 512 → EReal) (k : Fin 512) : EReal :=
  ((∑ k' : Fin 512, a k' * wa k' k) + (∑ k' : Fin 512, x k' * wb k' k)) + b k

/-- SiLU: `t · σ(t)`, with `σ` the logistic function. -/
def silu (t : EReal) : EReal := t * Ideal.logistic t

/-- Second affine layer: column `j` of `s·W + b`. -/
def lin2 (s : Fin 512 → EReal) (w : Fin 512 → Fin 512 → EReal) (b : Fin 512 → EReal) (j : Fin 512) : EReal :=
  (∑ k : Fin 512, s k * w k j) + b j

/-- The hidden row that is normalised. -/
def hidRow (a x : Fin 512 → EReal) (wa wb : Fin 512 → Fin 512 → EReal) (b1 : Fin 512 → EReal)
    (w2 : Fin 512 → Fin 512 → EReal) (b2 : Fin 512 → EReal) (j : Fin 512) : EReal :=
  lin2 (fun k => silu (lin1 a x wa wb b1 k)) w2 b2 j

/-- The mean of a row. -/
def mean (h : Fin 512 → EReal) : EReal := Ideal.div (∑ j : Fin 512, h j) c512

/-- The variance of a row as `E[h²] − (E h)²`. -/
def varK (h : Fin 512 → EReal) : EReal := Ideal.div (∑ j : Fin 512, h j * h j) c512 - mean h * mean h

/-- Layer norm of the row `h` at column `j`, scaled by `g`, shifted by `b`, plus the residual `r`. -/
def lnK (h g b r : Fin 512 → EReal) (j : Fin 512) : EReal :=
  (((h j - mean h) * Ideal.rsqrt (varK h + eps)) * g j + b j) + r j

/-- One node's output row. -/
def rowOut (a x : Fin 512 → EReal) (wa wb : Fin 512 → Fin 512 → EReal) (b1 : Fin 512 → EReal)
    (w2 : Fin 512 → Fin 512 → EReal) (b2 g b : Fin 512 → EReal) (j : Fin 512) : EReal :=
  lnK (hidRow a x wa wb b1 w2 b2) g b x j

/-- The whole result from whole arrays: `A` the aggregated edge features, `X` the node features, `W1` the
    [1024, 512] first weight (its upper half multiplies `A`, its lower half `X`). -/
def G (A X : (⟨2, ![10000, 512]⟩ : Shape).Idx → EReal) (W1 : (⟨2, ![1024, 512]⟩ : Shape).Idx → EReal)
    (b1 : (⟨1, ![512]⟩ : Shape).Idx → EReal) (W2 : (⟨2, ![512, 512]⟩ : Shape).Idx → EReal)
    (b2 lw lb : (⟨1, ![512]⟩ : Shape).Idx → EReal) (n : Fin 10000) (j : Fin 512) : EReal :=
  rowOut (fun k => A (ix2 n k)) (fun k => X (ix2 n k))
    (fun k' k => W1 (ix2 (⟨k'.val, by omega⟩ : Fin 1024) k)) (fun k' k => W1 (ix2 (⟨512 + k'.val, by omega⟩ : Fin 1024) k))
    (fun k => b1 (ix1 k)) (fun k j => W2 (ix2 k j)) (fun k => b2 (ix1 k)) (fun k => lw (ix1 k)) (fun k => lb (ix1 k)) j

/-- An array of rows from its entries by coordinates. -/
def arrOf (g : Fin 10000 → Fin 512 → EReal) : (⟨2, ![10000, 512]⟩ : Shape).Idx → EReal :=
  fun i => g ⟨(i 0).val, idx2_lt0 i⟩ ⟨(i 1).val, idx2_lt1 i⟩

theorem arrOf_ix2 (g : Fin 10000 → Fin 512 → EReal) (n : Fin 10000) (j : Fin 512) : arrOf g (ix2 n j) = g n j := rfl

/-! ## Real-valuedness -/

/-- An extended real that is a real number. -/
def IsR (x : EReal) : Prop := ∃ r : ℝ, x = (r : EReal)

theorem IsR.coe (r : ℝ) : IsR (r : EReal) := ⟨r, rfl⟩
theorem IsR.zero : IsR 0 := ⟨0, rfl⟩

theorem IsR.add {x y : EReal} (hx : IsR x) (hy : IsR y) : IsR (x + y) := by
  obtain ⟨a, rfl⟩ := hx; obtain ⟨b, rfl⟩ := hy; exact ⟨a + b, (EReal.coe_add a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.sum {ι : Type*} (s : Finset ι) (f : ι → EReal) (h : ∀ i ∈ s, IsR (f i)) : IsR (∑ i ∈ s, f i) := by
  classical
  induction s using Finset.induction_on with
  | empty => simpa using IsR.zero
  | insert a s ha ih =>
    rw [Finset.sum_insert ha]
    exact (h a (Finset.mem_insert_self a s)).add (ih fun i hi => h i (Finset.mem_insert_of_mem hi))

theorem IsR.silu {t : EReal} (ht : IsR t) : IsR (silu t) := by
  obtain ⟨a, rfl⟩ := ht
  unfold Cert.Mlp.silu
  rw [Ideal.logistic_coe]
  exact (IsR.coe a).mul (IsR.coe _)

theorem IsR.lin1 {a x : Fin 512 → EReal} {wa wb : Fin 512 → Fin 512 → EReal} {b : Fin 512 → EReal}
    (ha : ∀ k, IsR (a k)) (hx : ∀ k, IsR (x k)) (hwa : ∀ k' k, IsR (wa k' k)) (hwb : ∀ k' k, IsR (wb k' k))
    (hb : ∀ k, IsR (b k)) (k : Fin 512) : IsR (lin1 a x wa wb b k) :=
  ((IsR.sum _ _ fun k' _ => (ha k').mul (hwa k' k)).add (IsR.sum _ _ fun k' _ => (hx k').mul (hwb k' k))).add (hb k)

theorem IsR.lin2 {s : Fin 512 → EReal} {w : Fin 512 → Fin 512 → EReal} {b : Fin 512 → EReal}
    (hs : ∀ k, IsR (s k)) (hw : ∀ k j, IsR (w k j)) (hb : ∀ j, IsR (b j)) (j : Fin 512) : IsR (lin2 s w b j) :=
  (IsR.sum _ _ fun k _ => (hs k).mul (hw k j)).add (hb j)

/-- A hidden row built from real inputs is real. -/
theorem IsR.hidRow {a x : Fin 512 → EReal} {wa wb : Fin 512 → Fin 512 → EReal} {b1 : Fin 512 → EReal}
    {w2 : Fin 512 → Fin 512 → EReal} {b2 : Fin 512 → EReal}
    (ha : ∀ k, IsR (a k)) (hx : ∀ k, IsR (x k)) (hwa : ∀ k' k, IsR (wa k' k)) (hwb : ∀ k' k, IsR (wb k' k))
    (hb1 : ∀ k, IsR (b1 k)) (hw2 : ∀ k j, IsR (w2 k j)) (hb2 : ∀ j, IsR (b2 j)) (j : Fin 512) :
    IsR (hidRow a x wa wb b1 w2 b2 j) :=
  IsR.lin2 (fun k => (IsR.lin1 ha hx hwa hwb hb1 k).silu) hw2 hb2 j

end Cert.Mlp

end
-- ==== Proof.KernelPoint.lean ====
/-
  One grid point of the kernel, read at an entry: the block the point writes back, as the generated value leg names
  it, is one node's output row `rowOut` of the point's loaded blocks.
-/
import proofs.«408015_j31705448579494_3_alg».proof.Proof.Gen.KernelIdeal.Value
import proofs.«408015_j31705448579494_3_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.Mlp.KernelPoint

open Idealize.ShloMosaic Idealize.ShloMosaic.ValueIdx Cert.KernelIdeal Cert.KernelIdeal.Gen Cert.Mlp

/-! ## The product of a row block with a square weight, at an entry -/

/-- The left operand's index keeps the output's row. -/
theorem lhs_0 (y : S1000x512.Idx) (k : dot_S1000x512_S512x512_S1000x512_1_0_0_1_n_n.contr.Idx) :
    (dot_S1000x512_S512x512_S1000x512_1_0_0_1_n_n.lhsIdx y k 0).val = (y 0).val := by
  simp [DotDims.lhsIdx, dot_S1000x512_S512x512_S1000x512_1_0_0_1_n_n]; rfl

/-- The left operand's column is the contracted coordinate. -/
theorem lhs_1 (y : S1000x512.Idx) (k : dot_S1000x512_S512x512_S1000x512_1_0_0_1_n_n.contr.Idx) :
    (dot_S1000x512_S512x512_S1000x512_1_0_0_1_n_n.lhsIdx y k 1).val = (k ⟨0, by decide⟩).val :=
  DotDims.lhsIdx_val_of_single _ rfl y k

/-- The right operand's row is the contracted coordinate. -/
theorem rhs_0 (y : S1000x512.Idx) (k : dot_S1000x512_S512x512_S1000x512_1_0_0_1_n_n.contr.Idx) :
    (dot_S1000x512_S512x512_S1000x512_1_0_0_1_n_n.rhsIdx y k 0).val = (k ⟨0, by decide⟩).val :=
  DotDims.rhsIdx_val_of_single _ rfl y k

/-- The right operand's index keeps the output's column. -/
theorem rhs_1 (y : S1000x512.Idx) (k : dot_S1000x512_S512x512_S1000x512_1_0_0_1_n_n.contr.Idx) :
    (dot_S1000x512_S512x512_S1000x512_1_0_0_1_n_n.rhsIdx y k 1).val = (y 1).val := by
  simp [DotDims.rhsIdx, dot_S1000x512_S512x512_S1000x512_1_0_0_1_n_n]; rfl

/-- A [1000,512] block times a [512,512] weight into the zero accumulator, at entry `(r, j)`: the sum over the
    contracted coordinate of the products of the entries. -/
theorem mm_apply (A : FVec Ideal S1000x512 .bf16) (B : FVec Ideal S512x512 .bf16) (r : Fin 1000) (j : Fin 512) :
    matmul (F := Ideal) dot_S1000x512_S512x512_S1000x512_1_0_0_1_n_n none A B (constant (F := Ideal) S1000x512 .f32 0x00000000#32) (ix2 r j)
      = ∑ k : Fin 512, A (ix2 r k) * B (ix2 k j) := by
  refine (Ideal.matmul_constant_zero_apply dot_S1000x512_S512x512_S1000x512_1_0_0_1_n_n none A B (ix2 r j)).trans ?_
  rw [← Equiv.sum_comp (contrEquiv1 dot_S1000x512_S512x512_S1000x512_1_0_0_1_n_n 512 rfl rfl).symm]
  refine Finset.sum_congr rfl fun c _ => ?_
  have c2 := contrEquiv1_symm_val dot_S1000x512_S512x512_S1000x512_1_0_0_1_n_n 512 rfl rfl c
  have l2 : dot_S1000x512_S512x512_S1000x512_1_0_0_1_n_n.lhsIdx (ix2 r j) ((contrEquiv1 _ 512 rfl rfl).symm c) = ix2 r c := by
    funext ax; apply Fin.ext
    match ax with
    | ⟨0, _⟩ => exact lhs_0 _ _
    | ⟨1, _⟩ => exact (lhs_1 _ _).trans c2
  have r2 : dot_S1000x512_S512x512_S1000x512_1_0_0_1_n_n.rhsIdx (ix2 r j) ((contrEquiv1 _ 512 rfl rfl).symm c) = ix2 c j := by
    funext ax; apply Fin.ext
    match ax with
    | ⟨0, _⟩ => exact (rhs_0 _ _).trans c2
    | ⟨1, _⟩ => exact rhs_1 _ _
  rw [l2, r2]

/-- A [1,512] row broadcast over the 1000 rows, at entry `(r, j)`: the row's entry `j`. -/
theorem bc_apply (v : FVec Ideal S1x512 .f32) (r : Fin 1000) (j : Fin 512) :
    broadcastTo S1000x512 v broadcasts_S1x512_S1000x512 (ix2 r j) = v (ix2 (0 : Fin 1) j) :=
  broadcastTo_1b_ab_apply v broadcasts_S1x512_S1000x512 r j

/-! ## The lane sum of a block, at a row -/

/-- The sum over the 512 lanes of a [1000,512] block, at row `r`. -/
theorem rowsum_apply (src : FVec Ideal S1000x512 .f32) (h : S1000x512.Reduces [1] S1000) (hφ : FKind.Formats .f32)
    (hacc : (0x00000000#32 : BitVec 32) = 0x00000000#32) (r : Fin 1000) :
    multiReduction (F := Ideal) .add [1] S1000 src 0x00000000#32 h hφ hacc (ix1 r) = ∑ j : Fin 512, src (ix2 r j) := by
  refine (Ideal.multiReduction_add_single src 0x00000000#32 h hφ hacc (ix1 r)).trans ?_
  refine Finset.sum_congr rfl fun k _ => congrArg src ?_
  funext a; apply Fin.ext
  match a with
  | ⟨0, _⟩ => rfl
  | ⟨1, _⟩ => rfl

/-! ## The hidden row at an entry -/

/-- The first layer before its activation, as a block: the two half products, added, plus the bias row. -/
def preAct (P0 P1 : FVec Ideal S1000x512 .f32) (P2 P3 : FVec Ideal S512x512 .bf16) (P4 : FVec Ideal S1x512 .f32) :
    FVec Ideal S1000x512 .f32 :=
  addf (addf (matmul dot_S1000x512_S512x512_S1000x512_1_0_0_1_n_n none (truncf .bf16 P0 bitsLt_bf16_f32) P2 (constant S1000x512 .f32 0x00000000#32))
      (matmul dot_S1000x512_S512x512_S1000x512_1_0_0_1_n_n none (truncf .bf16 P1 bitsLt_bf16_f32) P3 (constant S1000x512 .f32 0x00000000#32)))
    (broadcastTo S1000x512 P4 broadcasts_S1x512_S1000x512)

/-- Entry `(r, k)` of that block is `lin1` of row `r` at column `k`. -/
theorem preAct_apply (P0 P1 : FVec Ideal S1000x512 .f32) (P2 P3 : FVec Ideal S512x512 .bf16) (P4 : FVec Ideal S1x512 .f32)
    (r : Fin 1000) (k : Fin 512) :
    preAct P0 P1 P2 P3 P4 (ix2 r k)
      = lin1 (fun k => P0 (ix2 r k)) (fun k => P1 (ix2 r k)) (fun k' k => P2 (ix2 k' k)) (fun k' k => P3 (ix2 k' k))
          (fun k => P4 (ix2 (0 : Fin 1) k)) k := by
  unfold preAct lin1
  refine (addf_apply _ _ _).trans ?_
  refine congrArg₂ (· + ·) ?_ (bc_apply P4 r k)
  refine (addf_apply _ _ _).trans ?_
  exact congrArg₂ (· + ·) (mm_apply _ P2 r k) (mm_apply _ P3 r k)

/-- The payload, with its identity shape casts dropped, over the first layer's block. -/
theorem pay2_unfold (P0 P1 : FVec Ideal S1000x512 .f32) (P2 P3 : FVec Ideal S512x512 .bf16) (P4 : FVec Ideal S1x512 .f32)
    (P5 : FVec Ideal S512x512 .bf16) (P6 : FVec Ideal S1x512 .f32) :
    k0_pay2 (F := Ideal) P0 P1 P2 P3 P4 P5 P6
      = addf (matmul dot_S1000x512_S512x512_S1000x512_1_0_0_1_n_n none
            (truncf .bf16 (mulf (preAct P0 P1 P2 P3 P4) (logistic (preAct P0 P1 P2 P3 P4))) bitsLt_bf16_f32) P5
            (constant S1000x512 .f32 0x00000000#32))
          (broadcastTo S1000x512 P6 broadcasts_S1x512_S1000x512) := by
  unfold k0_pay2 preAct
  simp only [shapeCast_self]

/-- Entry `(r, j)` of the payload is the hidden row of row `r` at column `j`. -/
theorem pay2_eq (P0 P1 : FVec Ideal S1000x512 .f32) (P2 P3 : FVec Ideal S512x512 .bf16) (P4 : FVec Ideal S1x512 .f32)
    (P5 : FVec Ideal S512x512 .bf16) (P6 : FVec Ideal S1x512 .f32) (r : Fin 1000) (j : Fin 512) :
    k0_pay2 (F := Ideal) P0 P1 P2 P3 P4 P5 P6 (ix2 r j)
      = hidRow (fun k => P0 (ix2 r k)) (fun k => P1 (ix2 r k)) (fun k' k => P2 (ix2 k' k)) (fun k' k => P3 (ix2 k' k))
          (fun k => P4 (ix2 (0 : Fin 1) k)) (fun k j => P5 (ix2 k j)) (fun k => P6 (ix2 (0 : Fin 1) k)) j := by
  rw [pay2_unfold]
  unfold hidRow lin2
  refine (addf_apply _ _ _).trans ?_
  refine congrArg₂ (· + ·) ((mm_apply _ P5 r j).trans ?_) (bc_apply P6 r j)
  refine Finset.sum_congr rfl fun k _ => ?_
  refine congrArg (· * P5 (ix2 k j)) ?_
  show preAct P0 P1 P2 P3 P4 (ix2 r k) * Ideal.logistic (preAct P0 P1 P2 P3 P4 (ix2 r k)) = _
  rw [preAct_apply]
  rfl

/-! ## The normalisation, from its parts -/

/-- The printed tree of the write-back over named parts is the layer norm of the row those parts are read from. -/
theorem ln_congr {a0 b1 c2 b3 b4 p7 p8 p1 : Ideal .f32} {h g b x : Fin 512 → EReal} {j : Fin 512}
    (hA : a0 = h j) (hB1 : b1 = ∑ k : Fin 512, h k) (hC : c2 = ∑ k : Fin 512, h k * h k)
    (hB3 : b3 = ∑ k : Fin 512, h k) (hB4 : b4 = ∑ k : Fin 512, h k)
    (h7 : p7 = g j) (h8 : p8 = b j) (h1 : p1 = x j) :
    FloatOps.addf (F := Ideal) (FloatOps.addf (FloatOps.mulf (FloatOps.mulf
        (FloatOps.subf a0 (FloatOps.divf b1 (Scalar.ofBits .f32 0x44000000#32)))
        (FloatOps.rsqrt (FloatOps.addf (FloatOps.subf (FloatOps.divf c2 (Scalar.ofBits .f32 0x44000000#32))
          (FloatOps.mulf (FloatOps.divf b3 (Scalar.ofBits .f32 0x44000000#32)) (FloatOps.divf b4 (Scalar.ofBits .f32 0x44000000#32))))
          (Scalar.ofBits .f32 0x3727C5AC#32)))) p7) p8) p1
      = lnK h g b x j := by
  subst hA hB1 hC hB3 hB4 h7 h8 h1
  rfl

/-! ## The point's write-back at an entry -/

/-- Entry `(r, j)` of the block a point writes back is `rowOut` of row `r` of the two row blocks and of the weights. -/
theorem E9_eq (P0 P1 : Vec Ideal S1000x512 .f32) (P2 P3 : Vec Ideal S512x512 .bf16) (P4 : Vec Ideal S1x512 .f32)
    (P5 : Vec Ideal S512x512 .bf16) (P6 P7 P8 : Vec Ideal S1x512 .f32) (r : Fin 1000) (j : Fin 512) :
    Cert.KernelIdeal.Value.E9 (F := Ideal) P0 P1 P2 P3 P4 P5 P6 P7 P8 (ix2 r j)
      = rowOut (fun k => P0 (ix2 r k)) (fun k => P1 (ix2 r k)) (fun k' k => P2 (ix2 k' k)) (fun k' k => P3 (ix2 k' k))
          (fun k => P4 (ix2 (0 : Fin 1) k)) (fun k j => P5 (ix2 k j)) (fun k => P6 (ix2 (0 : Fin 1) k))
          (fun k => P7 (ix2 (0 : Fin 1) k)) (fun k => P8 (ix2 (0 : Fin 1) k)) j := by
  have hpay : ∀ k : Fin 512, k0_pay2 (F := Ideal) P0 P1 P2 P3 P4 P5 P6 (ix2 r k)
      = hidRow (fun k => P0 (ix2 r k)) (fun k => P1 (ix2 r k)) (fun k' k => P2 (ix2 k' k)) (fun k' k => P3 (ix2 k' k))
          (fun k => P4 (ix2 (0 : Fin 1) k)) (fun k j => P5 (ix2 k j)) (fun k => P6 (ix2 (0 : Fin 1) k)) k :=
    fun k => pay2_eq P0 P1 P2 P3 P4 P5 P6 r k
  have hsum : ∀ (h : S1000x512.Reduces [1] S1000) (hφ : FKind.Formats .f32) (hacc : (0x00000000#32 : BitVec 32) = 0x00000000#32),
      multiReduction (F := Ideal) .add [1] S1000 (k0_pay2 (F := Ideal) P0 P1 P2 P3 P4 P5 P6) 0x00000000#32 h hφ hacc (ix1 r)
        = ∑ k : Fin 512, hidRow (fun k => P0 (ix2 r k)) (fun k => P1 (ix2 r k)) (fun k' k => P2 (ix2 k' k)) (fun k' k => P3 (ix2 k' k))
          (fun k => P4 (ix2 (0 : Fin 1) k)) (fun k j => P5 (ix2 k j)) (fun k => P6 (ix2 (0 : Fin 1) k)) k :=
    fun h hφ hacc => (rowsum_apply _ h hφ hacc r).trans (Finset.sum_congr rfl fun k _ => hpay k)
  have hsq : ∀ (h : S1000x512.Reduces [1] S1000) (hφ : FKind.Formats .f32) (hacc : (0x00000000#32 : BitVec 32) = 0x00000000#32),
      multiReduction (F := Ideal) .add [1] S1000 (mulf (k0_pay2 (F := Ideal) P0 P1 P2 P3 P4 P5 P6) (k0_pay2 (F := Ideal) P0 P1 P2 P3 P4 P5 P6)) 0x00000000#32 h hφ hacc (ix1 r)
        = ∑ k : Fin 512, hidRow (fun k => P0 (ix2 r k)) (fun k => P1 (ix2 r k)) (fun k' k => P2 (ix2 k' k)) (fun k' k => P3 (ix2 k' k))
          (fun k => P4 (ix2 (0 : Fin 1) k)) (fun k j => P5 (ix2 k j)) (fun k => P6 (ix2 (0 : Fin 1) k)) k * hidRow (fun k => P0 (ix2 r k)) (fun k => P1 (ix2 r k)) (fun k' k => P2 (ix2 k' k)) (fun k' k => P3 (ix2 k' k))
          (fun k => P4 (ix2 (0 : Fin 1) k)) (fun k j => P5 (ix2 k j)) (fun k => P6 (ix2 (0 : Fin 1) k)) k :=
    fun h hφ hacc => (rowsum_apply _ h hφ hacc r).trans (Finset.sum_congr rfl fun k _ => by
      show k0_pay2 (F := Ideal) P0 P1 P2 P3 P4 P5 P6 (ix2 r k) * k0_pay2 (F := Ideal) P0 P1 P2 P3 P4 P5 P6 (ix2 r k) = _
      rw [hpay k])
  have i0 : Value.ix9_0 (ix2 r j) = ix2 r j := by
    funext a; apply Fin.ext
    match a with
    | ⟨0, _⟩ => rfl
    | ⟨1, _⟩ => rfl
  have i1 : Value.ix9_1 (ix2 r j) = ix1 r := by
    funext a; apply Fin.ext
    match a with
    | ⟨0, _⟩ => rfl
  have i2 : Value.ix9_2 (ix2 r j) = ix1 r := by
    funext a; apply Fin.ext
    match a with
    | ⟨0, _⟩ => rfl
  have i3 : Value.ix9_3 (ix2 r j) = ix1 r := by
    funext a; apply Fin.ext
    match a with
    | ⟨0, _⟩ => rfl
  have i4 : Value.ix9_4 (ix2 r j) = ix1 r := by
    funext a; apply Fin.ext
    match a with
    | ⟨0, _⟩ => rfl
  have i5 : Value.ix9_5 (ix2 r j) = ix2 (0 : Fin 1) j := by
    funext a; apply Fin.ext
    match a with
    | ⟨0, _⟩ => rfl
    | ⟨1, _⟩ => rfl
  have i6 : Value.ix9_6 (ix2 r j) = ix2 (0 : Fin 1) j := by
    funext a; apply Fin.ext
    match a with
    | ⟨0, _⟩ => rfl
    | ⟨1, _⟩ => rfl
  have i7 : Value.ix9_7 (ix2 r j) = ix2 r j := by
    funext a; apply Fin.ext
    match a with
    | ⟨0, _⟩ => rfl
    | ⟨1, _⟩ => rfl
  unfold rowOut
  refine ln_congr ?_ ?_ ?_ ?_ ?_ ?_ ?_ ?_
  · rw [i0]; exact hpay j
  · rw [i1]; exact hsum _ _ _
  · rw [i2]; exact hsq _ _ _
  · rw [i3]; exact hsum _ _ _
  · rw [i4]; exact hsum _ _ _
  · rw [i5]
  · rw [i6]
  · rw [i7]

end Cert.Mlp.KernelPoint

end
-- ==== Proof.KernelArray.lean ====
/-
  The kernel's program run: after it, the result array is `G` of the aggregated edge features (the scatter-add the
  program computes before the region) and the other arguments, and the arguments are unchanged.

  The grid has 10 points; point `t` reads rows `1000 t … 1000 t + 999` of the aggregated features and of the node
  features, reads the weights, biases, scale and shift whole, and writes the same rows of the result. So: what the host
  operations before the region left in each array the windows read (the two halves of the first weight sliced, the
  biases, scale and shift as one row each); each window's block at a point read off its array; the point's written block
  entry by entry as one node's output row; the ten blocks cover the array; hence the array after the run.
-/
import proofs.«408015_j31705448579494_3_alg».proof.Proof.Gen.KernelIdeal.Value
import proofs.«408015_j31705448579494_3_alg».proof.Proof.Spec
import proofs.«408015_j31705448579494_3_alg».proof.Proof.KernelPoint
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

namespace Cert.Mlp.KernelArray

open Idealize.ShloMosaic Idealize.ShloMosaic.TcCoe Idealize.SL.Sem Idealize.ShloMosaic.ValueIdx Cert.KernelIdeal Cert.KernelIdeal.Gen Cert.Mlp
open Idealize.ShloMosaic.StableHlo

/-- The aggregated edge features as the kernel's program computes them before the region. -/
def aggK (e : FVec Ideal S160000x512 .f32) (dst : IVec S160000 32) : FVec Ideal S10000x512 .f32 :=
  Host.scatterAdd Cert.KernelIdeal.scatter_S10000x512_S160000x1_S160000x512_1_0_0_1
    (broadcastInDim S10000x512 ![] Facts₀.bcast_S_S10000x512 (constant (F := Ideal) S_ .f32 0x00000000#32))
    (broadcastInDim S160000x1 ![0] Facts₀.bcast_S160000_S160000x1_0 dst) e

section Blocks

variable (m : (ℓ : Loc nD τ sig) → Buf (Elt Ideal) ℓ)

/-- The zero offsets, as a constant function. -/
theorem hz : (![0, 0] : Fin 2 → Nat) = fun _ => 0 := funext fun a => by fin_cases a <;> rfl

/-! ## The arrays the region finds, as the host operations before it left them -/

theorem V_v2 (c : Dev nD) : (V m c main_v2 : S10000x512.Idx → EReal)
    = aggK (m ((c : Thread nD τ).loc main_arg0)) (m ((c : Thread nD τ).loc main_arg2)) := by
  dsimp only [Gen.V, Gen.hostOps0]; after_results; rfl

theorem V_v4 (c : Dev nD) : (V m c main_v4 : S512x512.Idx → EReal)
    = (truncf (F := Ideal) .bf16 (extractStridedSlice S512x512 ![0, 0] (m ((c : Thread nD τ).loc main_arg3) : FVec Ideal S1024x512 .f32) slices_S1024x512_S512x512_0_0) bitsLt_bf16_f32 : FVec Ideal S512x512 .bf16) := by
  dsimp only [Gen.V, Gen.hostOps0]; after_results

theorem V_v6 (c : Dev nD) : (V m c main_v6 : S512x512.Idx → EReal)
    = (truncf (F := Ideal) .bf16 (extractStridedSlice S512x512 ![512, 0] (m ((c : Thread nD τ).loc main_arg3) : FVec Ideal S1024x512 .f32) slices_S1024x512_S512x512_512_0) bitsLt_bf16_f32 : FVec Ideal S512x512 .bf16) := by
  dsimp only [Gen.V, Gen.hostOps0]; after_results

theorem V_v7 (c : Dev nD) : (V m c main_v7 : S512x512.Idx → EReal)
    = (truncf (F := Ideal) .bf16 (m ((c : Thread nD τ).loc main_arg5) : FVec Ideal S512x512 .f32) bitsLt_bf16_f32 : FVec Ideal S512x512 .bf16) := by
  dsimp only [Gen.V, Gen.hostOps0]; after_results

theorem V_v8 (c : Dev nD) : (V m c main_v8 : S1x512.Idx → EReal)
    = shapeCast S1x512 (m ((c : Thread nD τ).loc main_arg4) : S512.Idx → EReal) shapeCasts_S512_S1x512 := by
  dsimp only [Gen.V, Gen.hostOps0]; after_results; rfl

theorem V_v9 (c : Dev nD) : (V m c main_v9 : S1x512.Idx → EReal)
    = shapeCast S1x512 (m ((c : Thread nD τ).loc main_arg6) : S512.Idx → EReal) shapeCasts_S512_S1x512 := by
  dsimp only [Gen.V, Gen.hostOps0]; after_results; rfl

theorem V_v10 (c : Dev nD) : (V m c main_v10 : S1x512.Idx → EReal)
    = shapeCast S1x512 (m ((c : Thread nD τ).loc main_arg7) : S512.Idx → EReal) shapeCasts_S512_S1x512 := by
  dsimp only [Gen.V, Gen.hostOps0]; after_results; rfl

theorem V_v11 (c : Dev nD) : (V m c main_v11 : S1x512.Idx → EReal)
    = shapeCast S1x512 (m ((c : Thread nD τ).loc main_arg8) : S512.Idx → EReal) shapeCasts_S512_S1x512 := by
  dsimp only [Gen.V, Gen.hostOps0]; after_results; rfl

/-- The upper half of the first weight, converted: entry `(k', k)` is the weight's. -/
theorem V_v4_apply (c : Dev nD) (k' k : Fin 512) : (V m c main_v4 : S512x512.Idx → EReal) (ix2 k' k)
    = (m ((c : Thread nD τ).loc main_arg3) : S1024x512.Idx → EReal) (ix2 (⟨k'.val, by omega⟩ : Fin 1024) k) := by
  rw [V_v4, truncf_apply]
  exact slice2_axis0_apply 0 _ _ k' k ⟨k'.val, by omega⟩ (Nat.zero_add _).symm

/-- The lower half: entry `(k', k)` is the weight's at row `512 + k'`. -/
theorem V_v6_apply (c : Dev nD) (k' k : Fin 512) : (V m c main_v6 : S512x512.Idx → EReal) (ix2 k' k)
    = (m ((c : Thread nD τ).loc main_arg3) : S1024x512.Idx → EReal) (ix2 (⟨512 + k'.val, by omega⟩ : Fin 1024) k) := by
  rw [V_v6, truncf_apply]
  exact slice2_axis0_apply 512 _ _ k' k ⟨512 + k'.val, by omega⟩ rfl

theorem V_v7_apply (c : Dev nD) (i : S512x512.Idx) : (V m c main_v7 : S512x512.Idx → EReal) i
    = (m ((c : Thread nD τ).loc main_arg5) : S512x512.Idx → EReal) i := by
  rw [V_v7, truncf_apply]

theorem V_v8_apply (c : Dev nD) (u : Fin 1) (k : Fin 512) : (V m c main_v8 : S1x512.Idx → EReal) (ix2 u k)
    = (m ((c : Thread nD τ).loc main_arg4) : S512.Idx → EReal) (ix1 k) := by
  rw [V_v8]; exact shapeCast_a_1a_apply _ _ u k

theorem V_v9_apply (c : Dev nD) (u : Fin 1) (k : Fin 512) : (V m c main_v9 : S1x512.Idx → EReal) (ix2 u k)
    = (m ((c : Thread nD τ).loc main_arg6) : S512.Idx → EReal) (ix1 k) := by
  rw [V_v9]; exact shapeCast_a_1a_apply _ _ u k

theorem V_v10_apply (c : Dev nD) (u : Fin 1) (k : Fin 512) : (V m c main_v10 : S1x512.Idx → EReal) (ix2 u k)
    = (m ((c : Thread nD τ).loc main_arg7) : S512.Idx → EReal) (ix1 k) := by
  rw [V_v10]; exact shapeCast_a_1a_apply _ _ u k

theorem V_v11_apply (c : Dev nD) (u : Fin 1) (k : Fin 512) : (V m c main_v11 : S1x512.Idx → EReal) (ix2 u k)
    = (m ((c : Thread nD τ).loc main_arg8) : S512.Idx → EReal) (ix1 k) := by
  rw [V_v11]; exact shapeCast_a_1a_apply _ _ u k

/-! ## The index maps over the grid -/

/-- Windows 0, 1 and 9 move with the point along the rows; windows 2 to 8 stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_9.index t (0 : Fin 2) = t.val ∧ win0_9.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-! ## Each input window's block at a point, read off the arrays -/

/-- Row `r` of point `t`'s block of the aggregated features is row `1000 t + r` of the array. -/
theorem blk0_apply (c : Dev nD) (t : Fin cfg0.N) (r : Fin 1000) (k : Fin 512) (n : Fin 10000) (hn : n.val = 1000 * t.val + r.val) :
    (iblk m c 0 t : Vec Ideal S1000x512 .f32) (ix2 r k) = aggK (m ((c : Thread nD τ).loc main_arg0)) (m ((c : Thread nD τ).loc main_arg2)) (ix2 n k) := by
  obtain ⟨e00, e01, -⟩ := idx_facts t
  unfold iblk
  rw [View.read_apply]
  show V m c main_v2 (((cfg0.win 0).blk t).view.emb (ix2 r k)) = _
  have he : ((cfg0.win 0).blk t).view.emb (ix2 r k) = (ix2 n k : S10000x512.Idx) := by
    funext a; apply Fin.ext
    match a with
    | ⟨0, _⟩ => show win0_0.index t (0 : Fin 2) * 1000 + 1 * r.val = n.val; rw [e00, hn]; omega
    | ⟨1, _⟩ => show win0_0.index t (1 : Fin 2) * 512 + 1 * k.val = k.val; rw [e01]; omega
  rw [he, V_v2]

/-- Row `r` of point `t`'s block of the node features is row `1000 t + r` of the argument. -/
theorem blk1_apply (c : Dev nD) (t : Fin cfg0.N) (r : Fin 1000) (k : Fin 512) (n : Fin 10000) (hn : n.val = 1000 * t.val + r.val) :
    (iblk m c 1 t : Vec Ideal S1000x512 .f32) (ix2 r k) = ((m ((c : Thread nD τ).loc main_arg1)) : S10000x512.Idx → EReal) (ix2 n k) := by
  obtain ⟨-, -, e10, e11, -⟩ := idx_facts t
  unfold iblk
  rw [View.read_apply]
  show V m c main_arg1 (((cfg0.win 1).blk t).view.emb (ix2 r k)) = _
  have he : ((cfg0.win 1).blk t).view.emb (ix2 r k) = (ix2 n k : S10000x512.Idx) := by
    funext a; apply Fin.ext
    match a with
    | ⟨0, _⟩ => show win0_1.index t (0 : Fin 2) * 1000 + 1 * r.val = n.val; rw [e10, hn]; omega
    | ⟨1, _⟩ => show win0_1.index t (1 : Fin 2) * 512 + 1 * k.val = k.val; rw [e11]; omega
  rw [he, V_main_arg1]

/-- Window 2 is the whole converted upper half of the first weight at every point. -/
theorem blk2_apply (c : Dev nD) (t : Fin cfg0.N) (k' k : Fin 512) :
    (iblk m c 2 t : Vec Ideal S512x512 .bf16) (ix2 k' k) = ((m ((c : Thread nD τ).loc main_arg3)) : S1024x512.Idx → EReal) (ix2 (⟨k'.val, by omega⟩ : Fin 1024) k) := by
  obtain ⟨-, -, -, -, -, -, f20, f21, f30, f31, f40, f41, f50, f51, f60, f61, f70, f71, f80, f81⟩ := idx_facts t
  unfold iblk
  rw [View.read_apply]
  show V m c main_v4 (((cfg0.win 2).blk t).view.emb (ix2 k' k)) = _
  have he : ((cfg0.win 2).blk t).view.emb (ix2 k' k) = (ix2 k' k : S512x512.Idx) := by
    funext a; apply Fin.ext
    match a with
    | ⟨0, _⟩ => show win0_2.index t (0 : Fin 2) * 512 + 1 * (k').val = (k').val; rw [f20]; omega
    | ⟨1, _⟩ => show win0_2.index t (1 : Fin 2) * 512 + 1 * (k).val = (k).val; rw [f21]; omega
  rw [he, V_v4_apply]

/-- Window 3 is the whole converted lower half. -/
theorem blk3_apply (c : Dev nD) (t : Fin cfg0.N) (k' k : Fin 512) :
    (iblk m c 3 t : Vec Ideal S512x512 .bf16) (ix2 k' k) = ((m ((c : Thread nD τ).loc main_arg3)) : S1024x512.Idx → EReal) (ix2 (⟨512 + k'.val, by omega⟩ : Fin 1024) k) := by
  obtain ⟨-, -, -, -, -, -, f20, f21, f30, f31, f40, f41, f50, f51, f60, f61, f70, f71, f80, f81⟩ := idx_facts t
  unfold iblk
  rw [View.read_apply]
  show V m c main_v6 (((cfg0.win 3).blk t).view.emb (ix2 k' k)) = _
  have he : ((cfg0.win 3).blk t).view.emb (ix2 k' k) = (ix2 k' k : S512x512.Idx) := by
    funext a; apply Fin.ext
    match a with
    | ⟨0, _⟩ => show win0_3.index t (0 : Fin 2) * 512 + 1 * (k').val = (k').val; rw [f30]; omega
    | ⟨1, _⟩ => show win0_3.index t (1 : Fin 2) * 512 + 1 * (k).val = (k).val; rw [f31]; omega
  rw [he, V_v6_apply]

/-- Window 4 is the first bias as one row. -/
theorem blk4_apply (c : Dev nD) (t : Fin cfg0.N) (u : Fin 1) (k : Fin 512) :
    (iblk m c 4 t : Vec Ideal S1x512 .f32) (ix2 u k) = ((m ((c : Thread nD τ).loc main_arg4)) : S512.Idx → EReal) (ix1 k) := by
  obtain ⟨-, -, -, -, -, -, f20, f21, f30, f31, f40, f41, f50, f51, f60, f61, f70, f71, f80, f81⟩ := idx_facts t
  unfold iblk
  rw [View.read_apply]
  show V m c main_v8 (((cfg0.win 4).blk t).view.emb (ix2 u k)) = _
  have he : ((cfg0.win 4).blk t).view.emb (ix2 u k) = (ix2 u k : S1x512.Idx) := by
    funext a; apply Fin.ext
    match a with
    | ⟨0, _⟩ => show win0_4.index t (0 : Fin 2) * 1 + 1 * (u).val = (u).val; rw [f40]; omega
    | ⟨1, _⟩ => show win0_4.index t (1 : Fin 2) * 512 + 1 * (k).val = (k).val; rw [f41]; omega
  rw [he, V_v8_apply]

/-- Window 5 is the whole converted second weight. -/
theorem blk5_apply (c : Dev nD) (t : Fin cfg0.N) (k' k : Fin 512) :
    (iblk m c 5 t : Vec Ideal S512x512 .bf16) (ix2 k' k) = ((m ((c : Thread nD τ).loc main_arg5)) : S512x512.Idx → EReal) (ix2 k' k) := by
  obtain ⟨-, -, -, -, -, -, f20, f21, f30, f31, f40, f41, f50, f51, f60, f61, f70, f71, f80, f81⟩ := idx_facts t
  unfold iblk
  rw [View.read_apply]
  show V m c main_v7 (((cfg0.win 5).blk t).view.emb (ix2 k' k)) = _
  have he : ((cfg0.win 5).blk t).view.emb (ix2 k' k) = (ix2 k' k : S512x512.Idx) := by
    funext a; apply Fin.ext
    match a with
    | ⟨0, _⟩ => show win0_5.index t (0 : Fin 2) * 512 + 1 * (k').val = (k').val; rw [f50]; omega
    | ⟨1, _⟩ => show win0_5.index t (1 : Fin 2) * 512 + 1 * (k).val = (k).val; rw [f51]; omega
  rw [he, V_v7_apply]

/-- Window 6 is the second bias as one row. -/
theorem blk6_apply (c : Dev nD) (t : Fin cfg0.N) (u : Fin 1) (k : Fin 512) :
    (iblk m c 6 t : Vec Ideal S1x512 .f32) (ix2 u k) = ((m ((c : Thread nD τ).loc main_arg6)) : S512.Idx → EReal) (ix1 k) := by
  obtain ⟨-, -, -, -, -, -, f20, f21, f30, f31, f40, f41, f50, f51, f60, f61, f70, f71, f80, f81⟩ := idx_facts t
  unfold iblk
  rw [View.read_apply]
  show V m c main_v9 (((cfg0.win 6).blk t).view.emb (ix2 u k)) = _
  have he : ((cfg0.win 6).blk t).view.emb (ix2 u k) = (ix2 u k : S1x512.Idx) := by
    funext a; apply Fin.ext
    match a with
    | ⟨0, _⟩ => show win0_6.index t (0 : Fin 2) * 1 + 1 * (u).val = (u).val; rw [f60]; omega
    | ⟨1, _⟩ => show win0_6.index t (1 : Fin 2) * 512 + 1 * (k).val = (k).val; rw [f61]; omega
  rw [he, V_v9_apply]

/-- Window 7 is the norm's scale as one row. -/
theorem blk7_apply (c : Dev nD) (t : Fin cfg0.N) (u : Fin 1) (k : Fin 512) :
    (iblk m c 7 t : Vec Ideal S1x512 .f32) (ix2 u k) = ((m ((c : Thread nD τ).loc main_arg7)) : S512.Idx → EReal) (ix1 k) := by
  obtain ⟨-, -, -, -, -, -, f20, f21, f30, f31, f40, f41, f50, f51, f60, f61, f70, f71, f80, f81⟩ := idx_facts t
  unfold iblk
  rw [View.read_apply]
  show V m c main_v10 (((cfg0.win 7).blk t).view.emb (ix2 u k)) = _
  have he : ((cfg0.win 7).blk t).view.emb (ix2 u k) = (ix2 u k : S1x512.Idx) := by
    funext a; apply Fin.ext
    match a with
    | ⟨0, _⟩ => show win0_7.index t (0 : Fin 2) * 1 + 1 * (u).val = (u).val; rw [f70]; omega
    | ⟨1, _⟩ => show win0_7.index t (1 : Fin 2) * 512 + 1 * (k).val = (k).val; rw [f71]; omega
  rw [he, V_v10_apply]

/-- Window 8 is the norm's shift as one row. -/
theorem blk8_apply (c : Dev nD) (t : Fin cfg0.N) (u : Fin 1) (k : Fin 512) :
    (iblk m c 8 t : Vec Ideal S1x512 .f32) (ix2 u k) = ((m ((c : Thread nD τ).loc main_arg8)) : S512.Idx → EReal) (ix1 k) := by
  obtain ⟨-, -, -, -, -, -, f20, f21, f30, f31, f40, f41, f50, f51, f60, f61, f70, f71, f80, f81⟩ := idx_facts t
  unfold iblk
  rw [View.read_apply]
  show V m c main_v11 (((cfg0.win 8).blk t).view.emb (ix2 u k)) = _
  have he : ((cfg0.win 8).blk t).view.emb (ix2 u k) = (ix2 u k : S1x512.Idx) := by
    funext a; apply Fin.ext
    match a with
    | ⟨0, _⟩ => show win0_8.index t (0 : Fin 2) * 1 + 1 * (u).val = (u).val; rw [f80]; omega
    | ⟨1, _⟩ => show win0_8.index t (1 : Fin 2) * 512 + 1 * (k).val = (k).val; rw [f81]; omega
  rw [he, V_v11_apply]

/-! ## What a point writes back -/

/-- Entry `(r, j)` of what the body leaves in the output's buffer is one node's output row of row `r` of the two
    row blocks and of the weight blocks. -/
theorem out_row (x0 x1 : Vec Ideal S1000x512 .f32) (x2 x3 : Vec Ideal S512x512 .bf16) (x4 : Vec Ideal S1x512 .f32)
    (x5 : Vec Ideal S512x512 .bf16) (x6 x7 x8 : Vec Ideal S1x512 .f32) (r : Fin 1000) (j : Fin 512) :
    out0_9 x0 x1 x2 x3 x4 x5 x6 x7 x8 (ix2 r j)
      = rowOut (fun k => x0 (ix2 r k)) (fun k => x1 (ix2 r k)) (fun k' k => x2 (ix2 k' k)) (fun k' k => x3 (ix2 k' k))
          (fun k => x4 (ix2 (0 : Fin 1) k)) (fun k j => x5 (ix2 k j)) (fun k => x6 (ix2 (0 : Fin 1) k))
          (fun k => x7 (ix2 (0 : Fin 1) k)) (fun k => x8 (ix2 (0 : Fin 1) k)) j := by
  unfold out0_9
  simp only [View.ld_unit_zero (S := S1000x512) hz, View.ld_unit_zero (S := S512x512) hz, View.ld_unit_zero (S := S1x512) hz]
  rw [Value.canon9_eq, KernelPoint.E9_eq]

/-- One node's output row depends on its nine row and weight functions only through their values. -/
theorem rowOut_congr {a a' x x' : Fin 512 → EReal} {wa wa' wb wb' : Fin 512 → Fin 512 → EReal} {b1 b1' : Fin 512 → EReal}
    {w2 w2' : Fin 512 → Fin 512 → EReal} {b2 b2' g g' b b' : Fin 512 → EReal} (j : Fin 512)
    (ha : ∀ k, a k = a' k) (hx : ∀ k, x k = x' k) (hwa : ∀ k' k, wa k' k = wa' k' k) (hwb : ∀ k' k, wb k' k = wb' k' k)
    (hb1 : ∀ k, b1 k = b1' k) (hw2 : ∀ k j, w2 k j = w2' k j) (hb2 : ∀ k, b2 k = b2' k) (hg : ∀ k, g k = g' k)
    (hb : ∀ k, b k = b' k) : rowOut a x wa wb b1 w2 b2 g b j = rowOut a' x' wa' wb' b1' w2' b2' g' b' j := by
  obtain rfl : a = a' := funext ha
  obtain rfl : x = x' := funext hx
  obtain rfl : wa = wa' := funext fun k' => funext (hwa k')
  obtain rfl : wb = wb' := funext fun k' => funext (hwb k')
  obtain rfl : b1 = b1' := funext hb1
  obtain rfl : w2 = w2' := funext fun k => funext (hw2 k)
  obtain rfl : b2 = b2' := funext hb2
  obtain rfl : g = g' := funext hg
  obtain rfl : b = b' := funext hb
  rfl

/-- Two functions of a [1000, 512] block index agree if they agree at every row and column. -/
theorem ext_rows {α : Type} (f g : S1000x512.Idx → α) (h : ∀ (r : Fin 1000) (j : Fin 512), f (ix2 r j) = g (ix2 r j)) : f = g :=
  funext fun y => by rw [eq_ix2 y]; exact h (y 0) (y 1)

/-- WHAT POINT `t` WRITES BACK is block `t` of the result array: rows `1000 t … 1000 t + 999` of `G`. -/
theorem flushed_eq (c : Dev nD) (t : Fin cfg0.N) :
    (dats m 0 c).flushed 9 t = ((cfg0.win 9).blk t).view.read (Elt Ideal) (arrOf (G (aggK (m ((c : Thread nD τ).loc main_arg0)) (m ((c : Thread nD τ).loc main_arg2))) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))) := by
  have hN : grid0.N = 10 := N_0
  have ht : t.val < 10 := by have h : t.val < grid0.N := t.isLt; omega
  obtain ⟨-, -, -, -, e90, e91, -⟩ := idx_facts t
  rw [Value.flushed9]
  refine ext_rows _ _ fun r j => ?_
  show out0_9 (iblk m c 0 t) (iblk m c 1 t) (iblk m c 2 t) (iblk m c 3 t) (iblk m c 4 t) (iblk m c 5 t) (iblk m c 6 t) (iblk m c 7 t) (iblk m c 8 t) (ix2 r j)
    = arrOf (G (aggK (m ((c : Thread nD τ).loc main_arg0)) (m ((c : Thread nD τ).loc main_arg2))) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (((cfg0.win 9).blk t).view.emb (ix2 r j))
  have he : ((cfg0.win 9).blk t).view.emb (ix2 r j) = (ix2 (⟨1000 * t.val + r.val, by omega⟩ : Fin 10000) j : S10000x512.Idx) := by
    funext a; apply Fin.ext
    match a with
    | ⟨0, _⟩ => show win0_9.index t (0 : Fin 2) * 1000 + 1 * r.val = 1000 * t.val + r.val; rw [e90]; omega
    | ⟨1, _⟩ => show win0_9.index t (1 : Fin 2) * 512 + 1 * j.val = j.val; rw [e91]; omega
  rw [he, arrOf_ix2, out_row]
  unfold G
  exact rowOut_congr j
    (fun k => blk0_apply m c t r k _ rfl) (fun k => blk1_apply m c t r k _ rfl)
    (fun k' k => blk2_apply m c t k' k) (fun k' k => blk3_apply m c t k' k) (fun k => blk4_apply m c t 0 k)
    (fun k j => blk5_apply m c t k j) (fun k => blk6_apply m c t 0 k) (fun k => blk7_apply m c t 0 k)
    (fun k => blk8_apply m c t 0 k)

/-! ## The blocks cover the array -/

/-- An index of the array is in point `t`'s block iff each coordinate is in the block's range on its axis. -/
theorem mem_blk (t : Fin cfg0.N) (i : S10000x512.Idx) :
    i ∈ ((cfg0.win 9).blk t).view.set ↔ ∀ a : Fin 2, win0_9.index t a * S1000x512.size a ≤ (i a).val ∧ (i a).val < win0_9.index t a * S1000x512.size a + S1000x512.size a := by
  show i ∈ ((View.whole main_v12).slice (win0_9.rect t)).set ↔ _
  rw [View.set_slice_whole, Rect.mem_set_unit]
  exact Iff.rfl

/-- Row `n` of the array is in the block of point `n / 1000`. -/
theorem cover (i : S10000x512.Idx) : ∃ t : Fin cfg0.N, (cfg0.win 9).flush t = true ∧ i ∈ ((cfg0.win 9).blk t).view.set := by
  have hN : grid0.N = 10 := N_0
  have hi0 : (i 0).val < 10000 := idx2_lt0 i
  have hi1 : (i 1).val < 512 := idx2_lt1 i
  have hq : (i 0).val / 1000 < grid0.N := by rw [hN]; omega
  obtain ⟨-, -, -, -, e90, e91, -⟩ := idx_facts ⟨(i 0).val / 1000, hq⟩
  refine ⟨⟨(i 0).val / 1000, hq⟩, flush0_9 _, ?_⟩
  rw [mem_blk]
  intro a
  match a with
  | ⟨0, _⟩ =>
    show win0_9.index ⟨(i 0).val / 1000, hq⟩ (0 : Fin 2) * 1000 ≤ (i 0).val ∧ (i 0).val < win0_9.index ⟨(i 0).val / 1000, hq⟩ (0 : Fin 2) * 1000 + 1000
    rw [e90]; show (i 0).val / 1000 * 1000 ≤ (i 0).val ∧ (i 0).val < (i 0).val / 1000 * 1000 + 1000; omega
  | ⟨1, _⟩ =>
    show win0_9.index ⟨(i 0).val / 1000, hq⟩ (1 : Fin 2) * 512 ≤ (i 1).val ∧ (i 1).val < win0_9.index ⟨(i 0).val / 1000, hq⟩ (1 : Fin 2) * 512 + 512
    rw [e91]; omega

/-- THE ARRAY after the run is `G` of the aggregated features and the arguments. -/
theorem final (c : Dev nD) : (dats m 0 c).arrAt 9 cfg0.N = arrOf (G (aggK (m ((c : Thread nD τ).loc main_arg0)) (m ((c : Thread nD τ).loc main_arg2))) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  (dats m 0 c).arrAt_eq_of_cover 9 (arrOf (G (aggK (m ((c : Thread nD τ).loc main_arg0)) (m ((c : Thread nD τ).loc main_arg2))) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))) (fun t _ => flushed_eq m c t) cover

end Blocks

theorem run (m : (ℓ : Loc nD τ sig) → Buf (Elt Ideal) ℓ) (ρ : Dev nD → PrngReg) :
    θ_run (Cert.KernelIdeal.defs (F := Ideal)) (onTc (τ := Cert.KernelIdeal.τ) (Cert.KernelIdeal.main (F := Ideal))) ⟨m, fun _ => 0, ρ⟩ fun r => ∀ c : Dev Cert.KernelIdeal.nD,
      r.2.mem ((c.tc : Thread Cert.KernelIdeal.nD Cert.KernelIdeal.τ).loc Cert.KernelIdeal.main_v12)
        = arrOf (G (aggK (m ((c.tc : Thread Cert.KernelIdeal.nD Cert.KernelIdeal.τ).loc Cert.KernelIdeal.main_arg0)) (m ((c.tc : Thread Cert.KernelIdeal.nD Cert.KernelIdeal.τ).loc Cert.KernelIdeal.main_arg2))) (m ((c.tc : Thread Cert.KernelIdeal.nD Cert.KernelIdeal.τ).loc Cert.KernelIdeal.main_arg1)) (m ((c.tc : Thread Cert.KernelIdeal.nD Cert.KernelIdeal.τ).loc Cert.KernelIdeal.main_arg3))
            (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8) :=
  (θ_run defs _ _).mono (fun r h c => ⟨(h c).1.trans (final m c), (h c).2⟩) (Value.run_blocks m ρ)

end Cert.Mlp.KernelArray

end
-- ==== Proof.RefTerm.lean ====
/-
  What the reference computes, as one pure term of its nine arguments at the extended reals: its operations
  composed in the order it applies them, each stage named.  `agg` is the scatter-add of the edge rows onto their
  destination nodes; `pre1` the first affine layer on the concatenation; `siluV` the SiLU written as
  `t · (1 / (1 + e^(−t)))`; `hid` the second affine layer; `muV` the row mean; `varV` the row variance as the mean
  of squared deviations, guarded by the comparison `512 − 0 > 0` that selects it; `refOut` the normalised, scaled,
  shifted row plus the residual.
-/
import proofs.«408015_j31705448579494_3_alg».proof.Proof.Gen.ReferenceIdeal
import Idealize.ShloMosaic.PureOps.Ideal

noncomputable section

namespace Cert.Mlp.Ref

open Idealize.ShloMosaic Cert.ReferenceIdeal Cert.ReferenceIdeal.Facts₀

abbrev zerosN : FVec Ideal S10000x512 .f32 :=
  broadcastInDim S10000x512 ![] bcast_S_S10000x512 (constant (F := Ideal) S_ .f32 0x00000000#32)

/-- The scatter-add of the edge rows onto their destination nodes. -/
def agg (e : FVec Ideal S160000x512 .f32) (dst : IVec S160000 32) : FVec Ideal S10000x512 .f32 :=
  Host.scatterAdd scatter_S10000x512_S160000x1_S160000x512_1_0_0_1 zerosN
    (broadcastInDim S160000x1 ![0] bcast_S160000_S160000x1_0 dst) e

/-- A [512] vector laid along every row. -/
def rowB (b : FVec Ideal S512 .f32) : FVec Ideal S10000x512 .f32 :=
  broadcastInDim S10000x512 ![0, 1] bcast_S1x512_S10000x512_0_1 (broadcastInDim S1x512 ![1] bcast_S512_S1x512_1 b)

/-- A [10000, 1] column laid along every column. -/
def colB (v : FVec Ideal S10000x1 .f32) : FVec Ideal S10000x512 .f32 :=
  broadcastInDim S10000x512 ![0, 1] bcast_S10000x1_S10000x512_0_1 v

def pre1 (a nf : FVec Ideal S10000x512 .f32) (W1 : FVec Ideal S1024x512 .f32) (b1 : FVec Ideal S512 .f32) :
    FVec Ideal S10000x512 .f32 :=
  addf (Host.dotGeneral dot_S10000x1024_S1024x512_S10000x512_1_0_0_1_n_n none
      (concatenate S10000x1024 1 [⟨S10000x512, a⟩, ⟨S10000x512, nf⟩] concatenates_S10000x512_S10000x512_S10000x1024_d1) W1)
    (rowB b1)

def onesN : FVec Ideal S10000x512 .f32 :=
  broadcastInDim S10000x512 ![] bcast_S_S10000x512 (constant (F := Ideal) S_ .f32 0x3F800000#32)

def siluV (t : FVec Ideal S10000x512 .f32) : FVec Ideal S10000x512 .f32 :=
  mulf t (Host.divf onesN (addf onesN (Host.exp (Host.negf t))))

def hid (s : FVec Ideal S10000x512 .f32) (W2 : FVec Ideal S512x512 .f32) (b2 : FVec Ideal S512 .f32) :
    FVec Ideal S10000x512 .f32 :=
  addf (Host.dotGeneral dot_S10000x512_S512x512_S10000x512_1_0_0_1_n_n none s W2) (rowB b2)

/-- The row sums, kept as a column. -/
def sumCol (h : FVec Ideal S10000x512 .f32) : FVec Ideal S10000x1 .f32 :=
  broadcastInDim S10000x1 ![0] bcast_S10000_S10000x1_0
    (Host.reduceAdd h (constant (F := Ideal) S_ .f32 0x00000000#32) reducesTo_S10000x512_S10000_d1 h_S_)

def muV (h : FVec Ideal S10000x512 .f32) : FVec Ideal S10000x1 .f32 :=
  Host.divf (sumCol h) (broadcastInDim S10000x1 ![] bcast_S_S10000x1 (constant (F := Ideal) S_ .f32 0x44000000#32))

/-- `512 − float(0)`: the divisor of the variance. -/
def nMinusDdof : FVec Ideal S_ .f32 :=
  subf (constant (F := Ideal) S_ .f32 0x44000000#32) (sitofp (F := Ideal) .f32 (constantI S_ 32 0#32))

def varV (h : FVec Ideal S10000x512 .f32) : FVec Ideal S10000x1 .f32 :=
  select (broadcastInDim S10000x1 ![] bcast_S_S10000x1 (cmpf (F := Ideal) .ogt nMinusDdof (constant (F := Ideal) S_ .f32 0x00000000#32)))
    (Host.divf (sumCol (mulf (subf h (colB (muV h))) (subf h (colB (muV h)))))
      (broadcastInDim S10000x1 ![] bcast_S_S10000x1 nMinusDdof))
    (broadcastInDim S10000x1 ![] bcast_S_S10000x1 (id (constant (F := Ideal) S_ .f32 0x7FC00000#32)))

def normV (h : FVec Ideal S10000x512 .f32) (lw lb : FVec Ideal S512 .f32) (nf : FVec Ideal S10000x512 .f32) :
    FVec Ideal S10000x512 .f32 :=
  addf (addf (mulf (mulf (subf h (colB (muV h)))
      (colB (Host.rsqrt (addf (varV h) (broadcastInDim S10000x1 ![] bcast_S_S10000x1 (constant (F := Ideal) S_ .f32 0x3727C5AC#32))))))
      (rowB lw)) (rowB lb)) nf

/-- The reference's second result as one term of its arguments. -/
def refOut (e : FVec Ideal S160000x512 .f32) (nf : FVec Ideal S10000x512 .f32) (dst : IVec S160000 32)
    (W1 : FVec Ideal S1024x512 .f32) (b1 : FVec Ideal S512 .f32) (W2 : FVec Ideal S512x512 .f32)
    (b2 lw lb : FVec Ideal S512 .f32) : FVec Ideal S10000x512 .f32 :=
  normV (hid (siluV (pre1 (agg e dst) nf W1 b1)) W2 b2) lw lb nf

end Cert.Mlp.Ref

end
-- ==== Proof.RefRun.lean ====
/-
  The reference's program run: every weakly fair execution ends with the second result at `refOut` of the arguments
  and the arguments unchanged.

  The reference is a straight line of tensor operations: @main's own thirty-eight, and at its three calls the callee's
  operations in the caller's place (the SiLU's nine; the variance's twenty, the last of which is itself a call, the
  guarded selection's three).  Listed in order they are sixty-seven operations, each writing one buffer of its own.
  The run of such a line ends with every buffer at the fold of the operations' results over the launch contents;
  read at the last buffer that fold is the composition `refOut` of the nine argument contents, and read at an
  argument buffer, which no operation writes, it is what the launch put there.
-/
import proofs.«408015_j31705448579494_3_alg».proof.Proof.RefTerm
import Idealize.ShloMosaic.Lib.StableHlo.Run

noncomputable section

namespace Cert.Mlp.RefRun

open Idealize.ShloMosaic Idealize.ShloMosaic.TcCoe Idealize.ShloMosaic.StableHlo Idealize.SL.Sem Cert.ReferenceIdeal Cert.ReferenceIdeal.Facts₀ Cert.Mlp

section Line

variable {F : FTy → Type} [FloatOps F]

/-- @main's operations in order, each call replaced by its callee's operations over that call's buffers: the first
    affine layer (the scatter-add, the concatenation, the product, the bias), the SiLU's nine, the second affine
    layer, the row mean, the variance's twenty with the guarded selection's three at their end, and the
    normalisation, scale, shift and residual. -/
abbrev ops : List (HloOp τ sig (Elt F)) :=
  [ nullary main_cst (constant S_ .f32 0x00000000#32),
    unary main_cst main_v0 (broadcastInDim S10000x512 ![] bcast_S_S10000x512),
    unary main_arg2 main_v1 (broadcastInDim S160000x1 ![0] bcast_S160000_S160000x1_0),
    ternary main_v0 main_v1 main_arg0 main_v2 (fun x i u => Host.scatterAdd scatter_S10000x512_S160000x1_S160000x512_1_0_0_1 x i u),
    binary main_v2 main_arg1 main_v3 (fun a b => concatenate S10000x1024 1 [⟨S10000x512, a⟩, ⟨S10000x512, b⟩] concatenates_S10000x512_S10000x512_S10000x1024_d1),
    binary main_v3 main_arg3 main_v4 (fun l r => Host.dotGeneral dot_S10000x1024_S1024x512_S10000x512_1_0_0_1_n_n none l r),
    unary main_arg4 main_v5 (broadcastInDim S1x512 ![1] bcast_S512_S1x512_1),
    unary main_v5 main_v6 (broadcastInDim S10000x512 ![0, 1] bcast_S1x512_S10000x512_0_1),
    binary main_v4 main_v6 main_v7 addf,
    TRef.unary (.of main_v7) main_call0.v0 Host.negf,
    TRef.unary main_call0.v0 main_call0.v1 Host.exp,
    TRef.nullary main_call0.cst (constant S_ .f32 0x3F800000#32),
    TRef.unary main_call0.cst main_call0.v2 (broadcastInDim S10000x512 ![] bcast_S_S10000x512),
    TRef.binary main_call0.v2 main_call0.v1 main_call0.v3 addf,
    TRef.nullary main_call0.cst_0 (constant S_ .f32 0x3F800000#32),
    TRef.unary main_call0.cst_0 main_call0.v4 (broadcastInDim S10000x512 ![] bcast_S_S10000x512),
    TRef.binary main_call0.v4 main_call0.v3 main_call0.v5 Host.divf,
    TRef.binary (.of main_v7) main_call0.v5 main_call0.v6 mulf,
    binary main_v8 main_arg5 main_v9 (fun l r => Host.dotGeneral dot_S10000x512_S512x512_S10000x512_1_0_0_1_n_n none l r),
    unary main_arg6 main_v10 (broadcastInDim S1x512 ![1] bcast_S512_S1x512_1),
    unary main_v10 main_v11 (broadcastInDim S10000x512 ![0, 1] bcast_S1x512_S10000x512_0_1),
    binary main_v9 main_v11 main_v12 addf,
    nullary main_cst_0 (constant S_ .f32 0x00000000#32),
    binary main_v12 main_cst_0 main_v13 (fun x v => Host.reduceAdd x v reducesTo_S10000x512_S10000_d1 h_S_),
    unary main_v13 main_v14 (broadcastInDim S10000x1 ![0] bcast_S10000_S10000x1_0),
    nullary main_cst_1 (constant S_ .f32 0x44000000#32),
    unary main_cst_1 main_v15 (broadcastInDim S10000x1 ![] bcast_S_S10000x1),
    binary main_v14 main_v15 main_v16 Host.divf,
    nullary main_c (constantI S_ 32 0#32),
    TRef.nullary main_call1.cst (constant S_ .f32 0x00000000#32),
    TRef.binary (.of main_v12) main_call1.cst main_call1.v0 (fun x v => Host.reduceAdd x v reducesTo_S10000x512_S10000_d1 h_S_),
    TRef.unary main_call1.v0 main_call1.v1 (broadcastInDim S10000x1 ![0] bcast_S10000_S10000x1_0),
    TRef.nullary main_call1.cst_0 (constant S_ .f32 0x44000000#32),
    TRef.unary main_call1.cst_0 main_call1.v2 (broadcastInDim S10000x1 ![] bcast_S_S10000x1),
    TRef.binary main_call1.v1 main_call1.v2 main_call1.v3 Host.divf,
    TRef.unary main_call1.v3 main_call1.v4 (broadcastInDim S10000x512 ![0, 1] bcast_S10000x1_S10000x512_0_1),
    TRef.binary (.of main_v12) main_call1.v4 main_call1.v5 subf,
    TRef.binary main_call1.v5 main_call1.v5 main_call1.v6 mulf,
    TRef.unary (.of main_c) main_call1.v7 (sitofp .f32),
    TRef.nullary main_call1.cst_1 (constant S_ .f32 0x44000000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S10000x512_S10000_d1 h_S_),
    TRef.unary main_call1.v9 main_call1.v10 (broadcastInDim S10000x1 ![0] bcast_S10000_S10000x1_0),
    TRef.unary main_call1.v8 main_call1.v11 (broadcastInDim S10000x1 ![] bcast_S_S10000x1),
    TRef.binary main_call1.v10 main_call1.v11 main_call1.v12 Host.divf,
    TRef.nullary main_call1.cst_3 (constant S_ .f32 0x00000000#32),
    TRef.binary main_call1.v8 main_call1.cst_3 main_call1.v13 (cmpf .ogt),
    TRef.nullary main_call1.cst_4 (constant S_ .f32 0x7FC00000#32),
    TRef.unary main_call1.cst_4 main_call1.call0.v0 id,
    TRef.unary main_call1.call0.v0 main_call1.call0.v1 (broadcastInDim S10000x1 ![] bcast_S_S10000x1),
    TRef.ternary main_call1.v13 main_call1.v12 main_call1.call0.v1 main_call1.call0.v2 (fun p a b => select (broadcastInDim S10000x1 ![] bcast_S_S10000x1 p) a b),
    unary main_v16 main_v18 (broadcastInDim S10000x512 ![0, 1] bcast_S10000x1_S10000x512_0_1),
    binary main_v12 main_v18 main_v19 subf,
    nullary main_cst_2 (constant S_ .f32 0x3727C5AC#32),
    unary main_cst_2 main_v20 (broadcastInDim S10000x1 ![] bcast_S_S10000x1),
    binary main_v17 main_v20 main_v21 addf,
    unary main_v21 main_v22 Host.rsqrt,
    unary main_v22 main_v23 (broadcastInDim S10000x512 ![0, 1] bcast_S10000x1_S10000x512_0_1),
    binary main_v19 main_v23 main_v24 mulf,
    unary main_arg7 main_v25 (broadcastInDim S1x512 ![1] bcast_S512_S1x512_1),
    unary main_v25 main_v26 (broadcastInDim S10000x512 ![0, 1] bcast_S1x512_S10000x512_0_1),
    binary main_v24 main_v26 main_v27 mulf,
    unary main_arg8 main_v28 (broadcastInDim S1x512 ![1] bcast_S512_S1x512_1),
    unary main_v28 main_v29 (broadcastInDim S10000x512 ![0, 1] bcast_S1x512_S10000x512_0_1),
    binary main_v27 main_v29 main_v30 addf,
    binary main_v30 main_arg1 main_v31 addf ]

-- sixty-seven binds re-associated: the rewrite under the chain recurses once per statement
set_option maxRecDepth 2048 in
/-- @main is that straight line: with the three functions' definitions unfolded at their calls, and the calls' records
    at their fields, both sides are one chain of steps once sequencing is reassociated. -/
theorem main_eq (c : Dev nD) : main (F := F) c = seq ops := by
  simp only [main, fn_silu.body, fn_var.body, fn_where.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

/-- Every operation of the line touches buffers of the device only. -/
theorem ops_sub : (ops : List (HloOp τ sig (Elt F))).Forall fun op => op.bufs ⊆ tcRefs τ sig :=
  ⟨nullary_bufs_sub .., unary_bufs_sub .., unary_bufs_sub .., ternary_bufs_sub .., binary_bufs_sub .., binary_bufs_sub ..,
    unary_bufs_sub .., unary_bufs_sub .., binary_bufs_sub .., unary_bufs_sub .., unary_bufs_sub .., nullary_bufs_sub ..,
    unary_bufs_sub .., binary_bufs_sub .., nullary_bufs_sub .., unary_bufs_sub .., binary_bufs_sub .., binary_bufs_sub ..,
    binary_bufs_sub .., unary_bufs_sub .., unary_bufs_sub .., binary_bufs_sub .., nullary_bufs_sub .., binary_bufs_sub ..,
    unary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., unary_bufs_sub .., binary_bufs_sub .., nullary_bufs_sub .., binary_bufs_sub ..,
    nullary_bufs_sub .., unary_bufs_sub .., unary_bufs_sub .., ternary_bufs_sub .., unary_bufs_sub .., binary_bufs_sub ..,
    nullary_bufs_sub .., unary_bufs_sub .., binary_bufs_sub .., unary_bufs_sub .., unary_bufs_sub .., binary_bufs_sub ..,
    unary_bufs_sub .., unary_bufs_sub .., binary_bufs_sub .., unary_bufs_sub .., unary_bufs_sub .., binary_bufs_sub ..,
    binary_bufs_sub ..⟩

/-- From any memory with zero counters, every weakly fair execution of @main terminates, and every final state has
    each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

theorem arg3_eq (V : Valuation τ sig (Elt F)) :
    after ops V (main_arg3 : DevRef τ sig) = V (main_arg3 : DevRef τ sig) := by
  simp only [after_cons, after_nil]
  rfl

theorem arg4_eq (V : Valuation τ sig (Elt F)) :
    after ops V (main_arg4 : DevRef τ sig) = V (main_arg4 : DevRef τ sig) := by
  simp only [after_cons, after_nil]
  rfl

theorem arg5_eq (V : Valuation τ sig (Elt F)) :
    after ops V (main_arg5 : DevRef τ sig) = V (main_arg5 : DevRef τ sig) := by
  simp only [after_cons, after_nil]
  rfl

theorem arg6_eq (V : Valuation τ sig (Elt F)) :
    after ops V (main_arg6 : DevRef τ sig) = V (main_arg6 : DevRef τ sig) := by
  simp only [after_cons, after_nil]
  rfl

theorem arg7_eq (V : Valuation τ sig (Elt F)) :
    after ops V (main_arg7 : DevRef τ sig) = V (main_arg7 : DevRef τ sig) := by
  simp only [after_cons, after_nil]
  rfl

theorem arg8_eq (V : Valuation τ sig (Elt F)) :
    after ops V (main_arg8 : DevRef τ sig) = V (main_arg8 : DevRef τ sig) := by
  simp only [after_cons, after_nil]
  rfl

end Line

attribute [local irreducible] Host.reduceAdd Host.scatterAdd Ideal.matmul concatenate in
set_option maxRecDepth 8192 in
set_option maxHeartbeats 400000 in
/-- The fold at the last buffer is `refOut` of the argument contents, by computation: the fold unrolled, each
    operation's result decides whether the buffer read is the one it writes, and the typed references' transports are
    the identity at these literal references.  The scatter-add, the two products, the concatenation and the row sums
    are kept folded meanwhile: the equation never looks inside them. -/
theorem out_eq (V : Valuation τ sig (Elt Ideal)) :
    after (ops (F := Ideal)) V (main_v31 : DevRef τ sig)
      = Ref.refOut (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig)) := by
  simp only [after_cons, after_nil]
  rfl

/-- The run read at the second result and at the nine arguments: the fold at the last buffer is `refOut` of the launch
    contents at the argument buffers, and the fold at an argument buffer is the launch contents there. -/
theorem run (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal))) ⟨m, fun _ => 0, ρ⟩ fun r => ∀ c : Dev Cert.ReferenceIdeal.nD,
      r.2.mem ((c.tc : Thread Cert.ReferenceIdeal.nD Cert.ReferenceIdeal.τ).loc Cert.ReferenceIdeal.main_v31)
        = Ref.refOut (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
            (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8) :=
  (θ_run (Cert.ReferenceIdeal.defs (F := Ideal)) _ _).mono
    (fun _ h c => ⟨(h c main_v31).trans (out_eq _), (h c main_arg0).trans (arg0_eq _), (h c main_arg1).trans (arg1_eq _),
      (h c main_arg2).trans (arg2_eq _), (h c main_arg3).trans (arg3_eq _), (h c main_arg4).trans (arg4_eq _),
      (h c main_arg5).trans (arg5_eq _), (h c main_arg6).trans (arg6_eq _), (h c main_arg7).trans (arg7_eq _),
      (h c main_arg8).trans (arg8_eq _)⟩)
    (run_main (F := Ideal) m ρ)

end Cert.Mlp.RefRun

end
-- ==== Proof.RefDot.lean ====
/-
  The reference's two matrix products read as plain sums.  A `dot_general` contracting the left operand's second
  axis with the right operand's first sums, at result entry `(n, k)`, the products `l (n, i) · r (i, k)` over the
  contracted coordinate `i`: the contraction index has one coordinate, and the operand indices read the result's
  row, the contracted coordinate, and the result's column.
-/
import proofs.«408015_j31705448579494_3_alg».proof.Proof.RefTerm
import proofs.«408015_j31705448579494_3_alg».proof.Proof.Spec
import Idealize.ShloMosaic.Lib.ValueIdx
import Idealize.ShloMosaic.PureOps.Ideal.Laws

noncomputable section

namespace Cert.Mlp.RefDot

open Idealize.ShloMosaic Idealize.ShloMosaic.ValueIdx Cert.ReferenceIdeal

/-- The first layer's product: [10000, 1024] × [1024, 512]. -/
abbrev D1 : DotDims S10000x1024 S1024x512 S10000x512 := dot_S10000x1024_S1024x512_S10000x512_1_0_0_1_n_n
/-- The second layer's product: [10000, 512] × [512, 512]. -/
abbrev D2 : DotDims S10000x512 S512x512 S10000x512 := dot_S10000x512_S512x512_S10000x512_1_0_0_1_n_n

theorem D1_lhs0 (j : S10000x512.Idx) (q : D1.contr.Idx) : (D1.lhsIdx j q 0 : ℕ) = j 0 := by
  simp [DotDims.lhsIdx, D1, dot_S10000x1024_S1024x512_S10000x512_1_0_0_1_n_n]; rfl
theorem D1_lhs1 (j : S10000x512.Idx) (q : D1.contr.Idx) : (D1.lhsIdx j q 1 : ℕ) = q ⟨0, by decide⟩ := by
  simp [DotDims.lhsIdx, D1, dot_S10000x1024_S1024x512_S10000x512_1_0_0_1_n_n]; rfl
theorem D1_rhs0 (j : S10000x512.Idx) (q : D1.contr.Idx) : (D1.rhsIdx j q 0 : ℕ) = q ⟨0, by decide⟩ := by
  simp [DotDims.rhsIdx, D1, dot_S10000x1024_S1024x512_S10000x512_1_0_0_1_n_n]; rfl
theorem D1_rhs1 (j : S10000x512.Idx) (q : D1.contr.Idx) : (D1.rhsIdx j q 1 : ℕ) = j 1 := by
  simp [DotDims.rhsIdx, D1, dot_S10000x1024_S1024x512_S10000x512_1_0_0_1_n_n]; rfl

theorem D2_lhs0 (j : S10000x512.Idx) (q : D2.contr.Idx) : (D2.lhsIdx j q 0 : ℕ) = j 0 := by
  simp [DotDims.lhsIdx, D2, dot_S10000x512_S512x512_S10000x512_1_0_0_1_n_n]; rfl
theorem D2_lhs1 (j : S10000x512.Idx) (q : D2.contr.Idx) : (D2.lhsIdx j q 1 : ℕ) = q ⟨0, by decide⟩ := by
  simp [DotDims.lhsIdx, D2, dot_S10000x512_S512x512_S10000x512_1_0_0_1_n_n]; rfl
theorem D2_rhs0 (j : S10000x512.Idx) (q : D2.contr.Idx) : (D2.rhsIdx j q 0 : ℕ) = q ⟨0, by decide⟩ := by
  simp [DotDims.rhsIdx, D2, dot_S10000x512_S512x512_S10000x512_1_0_0_1_n_n]; rfl
theorem D2_rhs1 (j : S10000x512.Idx) (q : D2.contr.Idx) : (D2.rhsIdx j q 1 : ℕ) = j 1 := by
  simp [DotDims.rhsIdx, D2, dot_S10000x512_S512x512_S10000x512_1_0_0_1_n_n]; rfl

/-- The first product at `(n, k)` is the sum over the 1024 contracted coordinates. -/
theorem D1_sum (l : S10000x1024.Idx → EReal) (r : S1024x512.Idx → EReal) (n : Fin 10000) (k : Fin 512) :
    (∑ q : D1.contr.Idx, l (D1.lhsIdx (ix2 n k) q) * r (D1.rhsIdx (ix2 n k) q))
      = ∑ i : Fin 1024, l (ix2 n i) * r (ix2 i k) := by
  rw [← Equiv.sum_comp (contrEquiv1 D1 1024 rfl rfl).symm]
  refine Finset.sum_congr rfl fun i _ => ?_
  have hl : D1.lhsIdx (ix2 n k) ((contrEquiv1 D1 1024 rfl rfl).symm i) = ix2 n i := by
    funext a; apply Fin.ext
    match a with
    | ⟨0, _⟩ => exact D1_lhs0 _ _
    | ⟨1, _⟩ => exact (D1_lhs1 _ _).trans (contrEquiv1_symm_val D1 1024 rfl rfl i)
  have hr : D1.rhsIdx (ix2 n k) ((contrEquiv1 D1 1024 rfl rfl).symm i) = ix2 i k := by
    funext a; apply Fin.ext
    match a with
    | ⟨0, _⟩ => exact (D1_rhs0 _ _).trans (contrEquiv1_symm_val D1 1024 rfl rfl i)
    | ⟨1, _⟩ => exact D1_rhs1 _ _
  rw [hl, hr]

/-- The second product at `(n, j)` is the sum over the 512 contracted coordinates. -/
theorem D2_sum (l : S10000x512.Idx → EReal) (r : S512x512.Idx → EReal) (n : Fin 10000) (j : Fin 512) :
    (∑ q : D2.contr.Idx, l (D2.lhsIdx (ix2 n j) q) * r (D2.rhsIdx (ix2 n j) q))
      = ∑ i : Fin 512, l (ix2 n i) * r (ix2 i j) := by
  rw [← Equiv.sum_comp (contrEquiv1 D2 512 rfl rfl).symm]
  refine Finset.sum_congr rfl fun i _ => ?_
  have hl : D2.lhsIdx (ix2 n j) ((contrEquiv1 D2 512 rfl rfl).symm i) = ix2 n i := by
    funext a; apply Fin.ext
    match a with
    | ⟨0, _⟩ => exact D2_lhs0 _ _
    | ⟨1, _⟩ => exact (D2_lhs1 _ _).trans (contrEquiv1_symm_val D2 512 rfl rfl i)
  have hr : D2.rhsIdx (ix2 n j) ((contrEquiv1 D2 512 rfl rfl).symm i) = ix2 i j := by
    funext a; apply Fin.ext
    match a with
    | ⟨0, _⟩ => exact (D2_rhs0 _ _).trans (contrEquiv1_symm_val D2 512 rfl rfl i)
    | ⟨1, _⟩ => exact D2_rhs1 _ _
  rw [hl, hr]

end Cert.Mlp.RefDot

end
-- ==== Proof.Algebra.lean ====
/-
  The one law that joins the two sides.  The reference normalises a row `h` with the variance taken as the mean of
  the squared deviations, `(1/n) Σ (h_j − μ)²`, guarded by the test `n − 0 > 0`; the kernel takes it as
  `(1/n) Σ h_j² − μ²`.  Over the reals these agree: `Σ (h_j − μ)² = Σ h_j² − 2μ Σ h_j + n μ² = Σ h_j² − n μ²` since
  `Σ h_j = n μ`.  Over the extended reals the step that moves `μ` across the sum is distributivity, which fails at
  the infinities; so the identity is proved for a row of real numbers, by pushing the coercion out to one real
  expression on each side.  The leading `0 +` of the reference's sums (its reduce's initial value) and the
  divisor `512 − float(0)` are read off on the way.
-/
import proofs.«408015_j31705448579494_3_alg».proof.Proof.Spec

noncomputable section

namespace Cert.Mlp

open Idealize.ShloMosaic

/-- The word `0x44000000` is the real number 512. -/
theorem c512_eq : c512 = ((512 : ℝ) : EReal) := by
  unfold c512
  simp [Ideal.ofBits, Ideal.ieee, -EReal.coe_mul]; norm_num

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Division by the word 512 is multiplication by the real `1/512`. -/
theorem div_c512 (x : EReal) : Ideal.div x c512 = x * ((1 / 512 : ℝ) : EReal) := by
  rw [c512_eq]; exact Ideal.div_coe (by norm_num) x

/-- The reference's divisor of the variance, `512 − float(0)`. -/
def nR : EReal := c512 - (((0#32 : BitVec 32).toInt : ℝ) : EReal)

theorem nR_eq : nR = c512 := by
  unfold nR
  have : (((0#32 : BitVec 32).toInt : ℝ) : EReal) = 0 := by simp
  rw [this, sub_zero]

/-- The reference's mean: its reduce starts from the zero word. -/
def meanR (h : Fin 512 → EReal) : EReal := Ideal.div (Ideal.ofBits .f32 0x00000000#32 + ∑ j : Fin 512, h j) c512

theorem meanR_eq (h : Fin 512 → EReal) : meanR h = mean h := by
  unfold meanR mean
  rw [Ideal.ofBits_zero_f32, zero_add]

/-- The reference's variance: the mean of squared deviations, selected by the test `512 − 0 > 0` against a
    not-a-number word that is never taken. -/
def varR (h : Fin 512 → EReal) : EReal :=
  Scalar.select (Ideal.cmp .ogt nR (Ideal.ofBits .f32 0x00000000#32))
    (Ideal.div (Ideal.ofBits .f32 0x00000000#32 + ∑ j : Fin 512, (h j - meanR h) * (h j - meanR h)) nR)
    (Ideal.ofBits .f32 0x7FC00000#32)

/-- The reference's layer norm of the row `h` at column `j`. -/
def lnR (h g b r : Fin 512 → EReal) (j : Fin 512) : EReal :=
  (((h j - meanR h) * Ideal.rsqrt (varR h + eps)) * g j + b j) + r j

/-- The variance identity over the reals, with `μ = (Σ f) / 512`. -/
theorem real_var (f : Fin 512 → ℝ) :
    (∑ j : Fin 512, (f j - (∑ j : Fin 512, f j) * (1 / 512)) * (f j - (∑ j : Fin 512, f j) * (1 / 512))) * (1 / 512)
      = (∑ j : Fin 512, f j * f j) * (1 / 512) - ((∑ j : Fin 512, f j) * (1 / 512)) * ((∑ j : Fin 512, f j) * (1 / 512)) := by
  set S := ∑ j : Fin 512, f j with hS
  have e : ∑ j : Fin 512, (f j - S * (1 / 512)) * (f j - S * (1 / 512))
      = (∑ j : Fin 512, f j * f j) - 2 * (S * (1 / 512)) * S + 512 * ((S * (1 / 512)) * (S * (1 / 512))) := by
    have : ∀ j : Fin 512, (f j - S * (1 / 512)) * (f j - S * (1 / 512))
        = f j * f j - 2 * (S * (1 / 512)) * f j + (S * (1 / 512)) * (S * (1 / 512)) := fun j => by ring
    rw [Finset.sum_congr rfl fun j _ => this j, Finset.sum_add_distrib, Finset.sum_sub_distrib, ← Finset.mul_sum,
      Finset.sum_const, Finset.card_univ, Fintype.card_fin, ← hS]
    simp only [nsmul_eq_mul]; push_cast; ring
  rw [e]; ring

/-- The test `512 − 0 > 0` holds. -/
theorem cmp_nR : Ideal.cmp .ogt nR (Ideal.ofBits .f32 0x00000000#32) = 1#1 := by
  rw [nR_eq, c512_eq, Ideal.ofBits_zero_f32]
  unfold Ideal.cmp
  have : (0 : EReal) < ((512 : ℝ) : EReal) := by exact_mod_cast (by norm_num : (0 : ℝ) < 512)
  simp [this]

/-- For a real row the two variances are one number. -/
theorem varR_eq (h : Fin 512 → EReal) (hr : ∀ j, IsR (h j)) : varR h = varK h := by
  choose f hf using hr
  have hh : h = fun j => ((f j : ℝ) : EReal) := funext hf
  subst hh
  unfold varR
  rw [cmp_nR, ValueIdx.select_one, nR_eq, Ideal.ofBits_zero_f32, zero_add, meanR_eq]
  unfold varK mean
  simp only [div_c512]
  rw [← coe_sum, ← EReal.coe_mul]
  have e1 : (∑ j : Fin 512, ((f j : ℝ) : EReal) * ((f j : ℝ) : EReal)) = ((∑ j : Fin 512, f j * f j : ℝ) : EReal) := by
    rw [coe_sum]; exact Finset.sum_congr rfl fun j _ => (EReal.coe_mul _ _).symm
  have e2 : (∑ j : Fin 512, (((f j : ℝ) : EReal) - (((∑ j : Fin 512, f j) * (1 / 512) : ℝ) : EReal))
        * (((f j : ℝ) : EReal) - (((∑ j : Fin 512, f j) * (1 / 512) : ℝ) : EReal)))
      = ((∑ j : Fin 512, (f j - (∑ j : Fin 512, f j) * (1 / 512)) * (f j - (∑ j : Fin 512, f j) * (1 / 512)) : ℝ) : EReal) := by
    rw [coe_sum]; exact Finset.sum_congr rfl fun j _ => by rw [← EReal.coe_sub, ← EReal.coe_mul]
  rw [e1, e2, ← EReal.coe_mul, ← EReal.coe_mul, ← EReal.coe_mul, ← EReal.coe_sub, real_var]

/-- For a real row the reference's layer norm is the kernel's. -/
theorem lnR_eq (h g b r : Fin 512 → EReal) (hr : ∀ j, IsR (h j)) (j : Fin 512) : lnR h g b r j = lnK h g b r j := by
  unfold lnR lnK
  rw [varR_eq h hr, meanR_eq]

end Cert.Mlp

end
-- ==== Proof.RefValue.lean ====
/-
  The reference's term read at an entry.  Each stage of `refOut` is read at `(n, j)`: a [512] vector laid along the
  rows reads its `j`-th entry, a [10000, 1] column laid along the columns reads its `n`-th entry, a row sum is the
  initial zero word plus the sum of the row, the product with the concatenation `[a, x]` splits at coordinate 512
  into the two half products, and jax's expansion of the SiLU is `t · σ(t)`.  Put together, entry `(n, j)` of the
  reference's result is the reference-form layer norm `lnR` of node `n`'s hidden row; for real inputs that row is
  real and `lnR` is the specification's `lnK`, so the result is `G`.
-/
import proofs.«408015_j31705448579494_3_alg».proof.Proof.RefDot
import proofs.«408015_j31705448579494_3_alg».proof.Proof.Algebra
import Idealize.ShloMosaic.Lib.Pipeline.Value

noncomputable section

namespace Cert.Mlp.RefValue

open Idealize.ShloMosaic Idealize.ShloMosaic.ValueIdx Cert.ReferenceIdeal Cert.Mlp Cert.Mlp.Ref Cert.Mlp.RefDot

/-- A [512] vector laid along every row, read at `(n, j)`. -/
theorem rowB_apply (b : FVec Ideal S512 .f32) (n : Fin 10000) (j : Fin 512) : rowB b (ix2 n j) = b (ix1 j) := by
  unfold rowB
  refine (broadcastInDim_apply _ _ _ (ix2 n j) (ix2 (0 : Fin 1) j) ?_).trans ?_
  · intro a
    match a with
    | ⟨0, _⟩ => rfl
    | ⟨1, _⟩ => rfl
  · refine broadcastInDim_apply _ _ _ (ix2 (0 : Fin 1) j) (ix1 j) ?_
    intro a
    match a with
    | ⟨0, _⟩ => rfl

/-- A [10000, 1] column laid along every column, read at `(n, j)`. -/
theorem colB_apply (v : FVec Ideal S10000x1 .f32) (n : Fin 10000) (j : Fin 512) :
    colB v (ix2 n j) = v (ix2 n (0 : Fin 1)) := by
  unfold colB
  refine broadcastInDim_apply _ _ _ (ix2 n j) (ix2 n (0 : Fin 1)) ?_
  intro a
  match a with
  | ⟨0, _⟩ => rfl
  | ⟨1, _⟩ => rfl

/-- The word `0x3F800000` is the real number 1. -/
theorem ofBits_one : Ideal.ofBits .f32 0x3F800000#32 = 1 := by
  simp [Ideal.ofBits, Ideal.ieee, -EReal.coe_mul]; norm_num

/-- jax's expansion of the SiLU at an entry. -/
theorem siluV_apply (t : FVec Ideal S10000x512 .f32) (i : S10000x512.Idx) : siluV t i = silu (t i) := by
  show t i * Ideal.div (Ideal.ofBits .f32 0x3F800000#32) (Ideal.ofBits .f32 0x3F800000#32 + Ideal.exp (-(t i))) = _
  rw [ofBits_one]
  rfl

/-- A row sum kept as a column, read at row `n`: the zero word plus the sum of the row. -/
theorem sumCol_apply (h : FVec Ideal S10000x512 .f32) (n : Fin 10000) :
    sumCol h (ix2 n (0 : Fin 1)) = Ideal.ofBits .f32 0x00000000#32 + ∑ j : Fin 512, h (ix2 n j) := by
  unfold sumCol
  refine (broadcastInDim_apply _ _ _ (ix2 n (0 : Fin 1)) (ix1 n) ?_).trans ?_
  · intro a
    match a with
    | ⟨0, _⟩ => rfl
  · have hred : S10000x512.Reduces [1] S10000 := by decide
    show Ideal.hostReduceAdd Facts₀.reducesTo_S10000x512_S10000_d1 h (Ideal.ofBits .f32 0x00000000#32) (ix1 n) = _
    rw [Ideal.hostReduceAdd_single _ hred]
    refine congrArg (Ideal.ofBits .f32 0x00000000#32 + ·) (Finset.sum_congr rfl fun k _ => congrArg h ?_)
    funext a
    apply Fin.ext
    match a with
    | ⟨0, _⟩ => rfl
    | ⟨1, _⟩ => rfl

theorem muV_apply (h : FVec Ideal S10000x512 .f32) (n : Fin 10000) :
    muV h (ix2 n (0 : Fin 1)) = meanR (fun j => h (ix2 n j)) := by
  show Ideal.div (sumCol h (ix2 n (0 : Fin 1))) (Ideal.ofBits .f32 0x44000000#32) = _
  rw [sumCol_apply]
  rfl

theorem varV_apply (h : FVec Ideal S10000x512 .f32) (n : Fin 10000) :
    varV h (ix2 n (0 : Fin 1)) = varR (fun j => h (ix2 n j)) := by
  show Scalar.select (Ideal.cmp .ogt nR (Ideal.ofBits .f32 0x00000000#32))
      (Ideal.div (sumCol (mulf (subf h (colB (muV h))) (subf h (colB (muV h)))) (ix2 n (0 : Fin 1))) nR)
      (Ideal.ofBits .f32 0x7FC00000#32) = _
  rw [sumCol_apply]
  unfold varR
  have e : ∀ j : Fin 512, mulf (subf h (colB (muV h))) (subf h (colB (muV h))) (ix2 n j)
      = (h (ix2 n j) - meanR (fun j => h (ix2 n j))) * (h (ix2 n j) - meanR (fun j => h (ix2 n j))) := by
    intro j
    show (h (ix2 n j) - colB (muV h) (ix2 n j)) * (h (ix2 n j) - colB (muV h) (ix2 n j)) = _
    rw [colB_apply, muV_apply]
  rw [Finset.sum_congr rfl fun j _ => e j]

/-- A sum over 1024 coordinates splits at 512. -/
theorem sum_split {N : ℕ} (hN : N = 512 + 512) (F : Fin N → EReal) :
    ∑ i : Fin N, F i = (∑ i : Fin 512, F ⟨i.val, by omega⟩) + ∑ i : Fin 512, F ⟨512 + i.val, by omega⟩ := by
  subst hN
  exact Fin.sum_univ_add F

/-- The first affine layer at `(n, k)`: the product with `[a, x]` is the sum of the two half products. -/
theorem pre1_apply (a nf : FVec Ideal S10000x512 .f32) (W1 : FVec Ideal S1024x512 .f32) (b1 : FVec Ideal S512 .f32)
    (n : Fin 10000) (k : Fin 512) :
    pre1 a nf W1 b1 (ix2 n k)
      = lin1 (fun i => a (ix2 n i)) (fun i => nf (ix2 n i))
          (fun k' k => W1 (ix2 (⟨k'.val, by omega⟩ : Fin 1024) k))
          (fun k' k => W1 (ix2 (⟨512 + k'.val, by omega⟩ : Fin 1024) k))
          (fun k => b1 (ix1 k)) k := by
  unfold pre1 lin1
  show FloatOps.dotGeneral D1 none .single
      (concatenate S10000x1024 1 [⟨S10000x512, a⟩, ⟨S10000x512, nf⟩] Facts₀.concatenates_S10000x512_S10000x512_S10000x1024_d1) W1 (ix2 n k)
      + rowB b1 (ix2 n k) = _
  rw [rowB_apply, Ideal.dotGeneral_apply, D1_sum, sum_split (by norm_num)]
  refine congrArg (· + b1 (ix1 k)) ?_
  refine congrArg₂ (· + ·) (Finset.sum_congr rfl fun i _ => ?_) (Finset.sum_congr rfl fun i _ => ?_)
  · refine congrArg (· * _) ?_
    exact concatenate_pair_apply_left 1 a nf _ (ix2 n (⟨i.val, by omega⟩ : Fin 1024)) rfl (ix2 n i)
      (fun b => match b with | ⟨0, _⟩ => rfl | ⟨1, _⟩ => rfl)
  · refine congrArg (· * _) ?_
    exact concatenate_pair_apply_right 1 a nf _ (ix2 n (⟨512 + i.val, by omega⟩ : Fin 1024)) rfl rfl (ix2 n i)
      (fun b hb => match b, hb with | ⟨0, _⟩, _ => rfl | ⟨1, _⟩, hb => absurd rfl hb)
      (by show i.val + 512 = 512 + i.val; omega)

/-- The second affine layer at `(n, j)`. -/
theorem hid_apply (s : FVec Ideal S10000x512 .f32) (W2 : FVec Ideal S512x512 .f32) (b2 : FVec Ideal S512 .f32)
    (n : Fin 10000) (j : Fin 512) :
    hid s W2 b2 (ix2 n j) = lin2 (fun k => s (ix2 n k)) (fun k j => W2 (ix2 k j)) (fun j => b2 (ix1 j)) j := by
  unfold hid lin2
  show FloatOps.dotGeneral D2 none .single s W2 (ix2 n j) + rowB b2 (ix2 n j) = _
  rw [rowB_apply, Ideal.dotGeneral_apply, D2_sum]

/-- The normalised, scaled, shifted row plus the residual at `(n, j)`: the reference-form layer norm of row `n`. -/
theorem normV_apply (h : FVec Ideal S10000x512 .f32) (lw lb : FVec Ideal S512 .f32) (nf : FVec Ideal S10000x512 .f32)
    (n : Fin 10000) (j : Fin 512) :
    normV h lw lb nf (ix2 n j)
      = lnR (fun j => h (ix2 n j)) (fun j => lw (ix1 j)) (fun j => lb (ix1 j)) (fun j => nf (ix2 n j)) j := by
  unfold normV lnR
  show (((h (ix2 n j) - colB (muV h) (ix2 n j))
      * colB (Host.rsqrt (addf (varV h) (broadcastInDim S10000x1 ![] Facts₀.bcast_S_S10000x1 (constant (F := Ideal) S_ .f32 0x3727C5AC#32)))) (ix2 n j))
      * rowB lw (ix2 n j) + rowB lb (ix2 n j)) + nf (ix2 n j) = _
  rw [colB_apply, colB_apply, rowB_apply, rowB_apply, muV_apply]
  show (((h (ix2 n j) - meanR fun j => h (ix2 n j)) * Ideal.rsqrt (varV h (ix2 n (0 : Fin 1)) + eps)) * lw (ix1 j) + lb (ix1 j))
      + nf (ix2 n j) = _
  rw [varV_apply]

/-- The hidden row of node `n` as the reference computes it is the specification's. -/
theorem hidden_apply (a nf : FVec Ideal S10000x512 .f32) (W1 : FVec Ideal S1024x512 .f32) (b1 : FVec Ideal S512 .f32)
    (W2 : FVec Ideal S512x512 .f32) (b2 : FVec Ideal S512 .f32) (n : Fin 10000) (j : Fin 512) :
    hid (siluV (pre1 a nf W1 b1)) W2 b2 (ix2 n j)
      = hidRow (fun i => a (ix2 n i)) (fun i => nf (ix2 n i))
          (fun k' k => W1 (ix2 (⟨k'.val, by omega⟩ : Fin 1024) k))
          (fun k' k => W1 (ix2 (⟨512 + k'.val, by omega⟩ : Fin 1024) k))
          (fun k => b1 (ix1 k)) (fun k j => W2 (ix2 k j)) (fun j => b2 (ix1 j)) j := by
  rw [hid_apply]
  unfold hidRow
  refine congrArg (fun s => lin2 s _ _ j) (funext fun k => ?_)
  rw [siluV_apply, pre1_apply]

/-- The scatter-add of real edge rows is real: each entry is the zero word plus a finite sum of entries. -/
theorem agg_isR (e : FVec Ideal S160000x512 .f32) (dst : IVec S160000 32) (he : ∀ i, IsR (e i)) (i : S10000x512.Idx) :
    IsR (agg e dst i) := by
  show IsR (Ideal.ofBits .f32 0x00000000#32 + ∑ j ∈ Finset.univ.filter (fun j => _ = some i), e j)
  rw [Ideal.ofBits_zero_f32]
  exact IsR.zero.add (IsR.sum _ _ fun j _ => he j)

/-- For real inputs the reference's result is `G` of the aggregated features and the other arguments. -/
theorem refOut_eq (e : FVec Ideal S160000x512 .f32) (nf : FVec Ideal S10000x512 .f32) (dst : IVec S160000 32)
    (W1 : FVec Ideal S1024x512 .f32) (b1 : FVec Ideal S512 .f32) (W2 : FVec Ideal S512x512 .f32)
    (b2 lw lb : FVec Ideal S512 .f32)
    (he : ∀ i, IsR (e i)) (hnf : ∀ i, IsR (nf i)) (hW1 : ∀ i, IsR (W1 i)) (hb1 : ∀ i, IsR (b1 i))
    (hW2 : ∀ i, IsR (W2 i)) (hb2 : ∀ i, IsR (b2 i)) :
    refOut e nf dst W1 b1 W2 b2 lw lb = arrOf (G (agg e dst) nf W1 b1 W2 b2 lw lb) := by
  funext i
  obtain ⟨n, j, rfl⟩ : ∃ (n : Fin 10000) (j : Fin 512), i = ix2 n j := ⟨i 0, i 1, eq_ix2 i⟩
  rw [arrOf_ix2]
  unfold refOut G rowOut
  rw [normV_apply]
  have hrow : (fun j => hid (siluV (pre1 (agg e dst) nf W1 b1)) W2 b2 (ix2 n j))
      = hidRow (fun i => agg e dst (ix2 n i)) (fun i => nf (ix2 n i))
          (fun k' k => W1 (ix2 (⟨k'.val, by omega⟩ : Fin 1024) k))
          (fun k' k => W1 (ix2 (⟨512 + k'.val, by omega⟩ : Fin 1024) k))
          (fun k => b1 (ix1 k)) (fun k j => W2 (ix2 k j)) (fun j => b2 (ix1 j)) :=
    funext fun j => hidden_apply _ _ _ _ _ _ n j
  rw [hrow]
  exact lnR_eq _ _ _ _ (fun j' => IsR.hidRow (fun k => agg_isR e dst he _) (fun k => hnf _) (fun _ _ => hW1 _)
    (fun _ _ => hW1 _) (fun k => hb1 _) (fun _ _ => hW2 _) (fun j => hb2 _) j') j

end Cert.Mlp.RefValue

end
-- ==== Proof.PreReal.lean ====
/-
  The precondition read back: if every float input passes the test `|x| < +∞`, every entry of every float input is
  a real number.
-/
import proofs.«408015_j31705448579494_3_alg».proof.Pre_finite_inputs
import proofs.«408015_j31705448579494_3_alg».proof.Proof.Gen.Pre_finite_inputs
import proofs.«408015_j31705448579494_3_alg».proof.Proof.Spec
import Idealize.ShloMosaic.PureOps.Ideal
import Idealize.ShloMosaic.PureOps.Ideal.Laws
import Idealize.ShloMosaic.Lib.ReduceAll

noncomputable section

namespace Cert.Mlp.PreReal

open Idealize.ShloMosaic Cert.Pre_finite_inputs Cert.Mlp

/-- The rank-0 shape has exactly one index. -/
instance : Subsingleton S_.Idx := ⟨fun a b => funext fun d => d.elim0⟩

/-- The f32 word `0x7F800000` denotes `+∞`. -/
theorem inf_word : Ideal.ofBits .f32 0x7F800000#32 = (⊤ : EReal) := by
  simp [Ideal.ofBits, Ideal.ieee]

/-- One element of the test: `|x| < +∞` over the extended reals leaves only the real numbers, since both
    `|⊥|` and `|⊤|` are `⊤`. -/
theorem isR_of_abs_lt_inf (x : EReal)
    (h : FloatOps.cmpf (F := Ideal) (φ := .f32) .olt (FloatOps.hostAbsf (F := Ideal) (φ := .f32) x)
      (FloatOps.ofBits (F := Ideal) .f32 0x7F800000#32) = 1#1) : IsR x := by
  rw [Ideal.hostAbsf_def, Ideal.cmpf_def, Ideal.absf_def, Ideal.ofBits_def, inf_word] at h
  induction x using EReal.rec with
  | bot => simp [Ideal.cmp] at h
  | top => simp [Ideal.cmp] at h
  | coe r => exact ⟨r, rfl⟩

/-- A whole tensor of any shape `s`: if `all(|x| < +∞)`, reduced by `and` over every axis from the constant 1,
    comes out 1, every entry of `x` is a real number. -/
theorem real_of_all {s : Shape} {axes : List (Fin s.rank)}
    (hb : S_.BroadcastsInDim s (![] : Fin 0 → Fin s.rank)) (hr : s.ReducesTo axes S_) (hu : 0 < S_.numel)
    (x : FVec Ideal s .f32) (j : S_.Idx)
    (h : Host.reduce IntOp.andi
        (cmpf .olt (Host.absf x) (broadcastInDim s ![] hb (constant (F := Ideal) S_ .f32 0x7F800000#32)))
        (constantI S_ 1 1#1) hr hu j = 1#1) (i : s.Idx) : IsR (x i) :=
  isR_of_abs_lt_inf (x i) (Host.reduce_andi_all _ _ hr hu j h i)

theorem real_of_pre (e : FVec Ideal S160000x512 .f32) (nf : FVec Ideal S10000x512 .f32) (dst : IVec S160000 32)
    (W1 : FVec Ideal S1024x512 .f32) (b1 : FVec Ideal S512 .f32) (W2 : FVec Ideal S512x512 .f32)
    (b2 lw lb : FVec Ideal S512 .f32)
    (h : Cert.Pre_finite_inputs.fn (F := Ideal) e nf dst W1 b1 W2 b2 lw lb = fun _ => 1#1) :
    (∀ i, IsR (e i)) ∧ (∀ i, IsR (nf i)) ∧ (∀ i, IsR (W1 i)) ∧ (∀ i, IsR (b1 i)) ∧ (∀ i, IsR (W2 i))
      ∧ (∀ i, IsR (b2 i)) ∧ (∀ i, IsR (lw i)) ∧ (∀ i, IsR (lb i)) := by
  have h0 := congrFun h ValueIdx.ix0
  dsimp only [Cert.Pre_finite_inputs.fn, Cert.Pre_finite_inputs.fn_part1, Cert.Pre_finite_inputs.fn_part2,
    Idealize.ShloMosaic.andi] at h0
  simp only [IntOp.andi_eq_one] at h0
  obtain ⟨⟨⟨⟨⟨⟨⟨he, hnf⟩, hW1⟩, hb1⟩, hW2⟩, hb2⟩, hlw⟩, hlb⟩ := h0
  exact ⟨real_of_all _ _ _ e _ he, real_of_all _ _ _ nf _ hnf, real_of_all _ _ _ W1 _ hW1,
    real_of_all _ _ _ b1 _ hb1, real_of_all _ _ _ W2 _ hW2, real_of_all _ _ _ b2 _ hb2,
    real_of_all _ _ _ lw _ hlw, real_of_all _ _ _ lb _ hlb⟩

end Cert.Mlp.PreReal

end
-- ==== Proof.lean ====
/-
  The certificate's claims assembled.

  The kernel program scatter-adds the edge features onto their destination nodes on the host and then, in ten
  blocks of a thousand nodes, applies a two-layer perceptron with SiLU to `[agg, x]`, normalises each hidden row,
  scales and shifts it and adds the residual `x`.  The reference does the same with plain array operations.  At the
  extended reals both scatter-adds are one term; the kernel's split product `agg·W1[:512] + x·W1[512:]` is the
  reference's product with the concatenation by splitting the sum; the SiLU is `t·σ(t)` on both sides; and the one
  real difference, the variance as `E[h²] − (E h)²` against `E[(h − E h)²]`, is an identity of real numbers, which
  applies because the precondition makes every float input finite and every operation up to the hidden row keeps
  real numbers real.

  The two word-level and idealised kernel frames are the generated ones; the reference's frame is its run with the
  value dropped; nothing was rewritten by the idealisation, so `preserves` holds trivially.
-/
import proofs.«408015_j31705448579494_3_alg».proof.Defs
import proofs.«408015_j31705448579494_3_alg».proof.Proof.Gen.Kernel
import proofs.«408015_j31705448579494_3_alg».proof.Proof.Gen.Kernel.Skeleton
import proofs.«408015_j31705448579494_3_alg».proof.Proof.Gen.Kernel.Launch
import proofs.«408015_j31705448579494_3_alg».proof.Proof.Gen.Kernel.Points
import proofs.«408015_j31705448579494_3_alg».proof.Proof.Gen.Kernel.Frame
import proofs.«408015_j31705448579494_3_alg».proof.Proof.Gen.KernelIdeal
import proofs.«408015_j31705448579494_3_alg».proof.Proof.Gen.KernelIdeal.Skeleton
import proofs.«408015_j31705448579494_3_alg».proof.Proof.Gen.KernelIdeal.Launch
import proofs.«408015_j31705448579494_3_alg».proof.Proof.Gen.KernelIdeal.Points
import proofs.«408015_j31705448579494_3_alg».proof.Proof.Gen.KernelIdeal.Frame
import proofs.«408015_j31705448579494_3_alg».proof.Proof.Gen.KernelIdeal.Value
import proofs.«408015_j31705448579494_3_alg».proof.Proof.Gen.ReferenceIdeal
import proofs.«408015_j31705448579494_3_alg».proof.Proof.Gen.Pre_finite_inputs
import proofs.«408015_j31705448579494_3_alg».proof.Proof.KernelArray
import proofs.«408015_j31705448579494_3_alg».proof.Proof.RefRun
import proofs.«408015_j31705448579494_3_alg».proof.Proof.RefValue
import proofs.«408015_j31705448579494_3_alg».proof.Proof.PreReal
import Idealize.ShloMosaic.Adequacy
import Idealize.ShloMosaic.Init

noncomputable section

namespace Cert.Proof

open Idealize.ShloMosaic Idealize.ShloMosaic.TcCoe Idealize.SL.Sem Cert.Mlp

/-- The two programs' scatter-adds are one term: the same operation at the same dimension numbers. -/
theorem agg_eq (e : FVec Ideal Cert.KernelIdeal.S160000x512 .f32) (dst : IVec Cert.KernelIdeal.S160000 32) :
    Ref.agg e dst = KernelArray.aggK e dst := rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (RefRun.run m ρ)

theorem preserves : Cert.preserves_Kernel_KernelIdeal := trivial

/-- Both idealised programs run, and from memories agreeing on the arguments end with the same two results: the
    edge features unchanged, and `G` of the aggregated features and the other arguments. -/
theorem algebraic : Cert.algebraic_KernelIdeal_ReferenceIdeal := by
  intro m ρ m' ρ' hpre hagree
  refine ⟨fun c => m ((c.tc : Thread Cert.KernelIdeal.nD Cert.KernelIdeal.τ).loc Cert.KernelIdeal.main_arg0),
    fun c => arrOf (G (KernelArray.aggK (m ((c.tc : Thread Cert.KernelIdeal.nD Cert.KernelIdeal.τ).loc Cert.KernelIdeal.main_arg0)) (m ((c.tc : Thread Cert.KernelIdeal.nD Cert.KernelIdeal.τ).loc Cert.KernelIdeal.main_arg2))) (m ((c.tc : Thread Cert.KernelIdeal.nD Cert.KernelIdeal.τ).loc Cert.KernelIdeal.main_arg1)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))), ?_, ?_⟩
  · exact (θ_run Cert.KernelIdeal.defs _ _).mono (fun r h c => ⟨(h c).2.1, (h c).1, (h c).2⟩) (KernelArray.run m ρ)
  · refine (θ_run Cert.ReferenceIdeal.defs _ _).mono (fun r h c => ?_) (RefRun.run m' ρ')
    obtain ⟨h0, h1, h2, h3, h4, h5, h6, h7, h8⟩ := hagree c
    obtain ⟨r0, r1, r3, r4, r5, r6, _, _⟩ := PreReal.real_of_pre _ _ _ _ _ _ _ _ _ (hpre c)
    refine ⟨(h c).2.1.trans h0, ?_, (h c).2⟩
    rw [(h c).1, h0, h1, h2, h3, h4, h5, h6, h7, h8, RefValue.refOut_eq _ _ _ _ _ _ _ _ _ r0 r1 r3 r4 r5 r6, agg_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
